-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x8192x4 : Shape := ⟨3, ![2000, 8192, 4]⟩
abbrev S_ : Shape := ⟨0, ![]⟩

class Facts : Prop where
  bcast_S_S2000x8192x4 : S_.BroadcastsInDim S2000x8192x4 (![] : Fin 0 → Fin S2000x8192x4.rank)
  reducesTo_S2000x8192x4_S_d0_1_2 : S2000x8192x4.ReducesTo [0, 1, 2] S_
  h_S_ : 0 < S_.numel

variable [Facts]

def fn {F : FTy → Type} [FloatOps F] (main_arg0 : FVec F S2000x8192x4 .f32) (main_arg1 : FVec F S2000x8192x4 .f32) : IVec S_ 1 :=
  let main_v0 : FVec F S2000x8192x4 .f32 := Host.absf main_arg0
  let main_cst : FVec F S_ .f32 := constant S_ .f32 0x7F800000#32
  let main_v1 : FVec F S2000x8192x4 .f32 := broadcastInDim S2000x8192x4 ![] bcast_S_S2000x8192x4 main_cst
  let main_v2 : IVec S2000x8192x4 1 := cmpf .olt main_v0 main_v1
  let main_c : IVec S_ 1 := constantI S_ 1 1#1
  let main_v3 : IVec S_ 1 := (fun x v => Host.reduce IntOp.andi x v reducesTo_S2000x8192x4_S_d0_1_2 h_S_) main_v2 main_c
  let main_v4 : FVec F S2000x8192x4 .f32 := Host.absf main_arg1
  let main_cst_0 : FVec F S_ .f32 := constant S_ .f32 0x7F800000#32
  let main_v5 : FVec F S2000x8192x4 .f32 := broadcastInDim S2000x8192x4 ![] bcast_S_S2000x8192x4 main_cst_0
  let main_v6 : IVec S2000x8192x4 1 := cmpf .olt main_v4 main_v5
  let main_c_1 : IVec S_ 1 := constantI S_ 1 1#1
  let main_v7 : IVec S_ 1 := (fun x v => Host.reduce IntOp.andi x v reducesTo_S2000x8192x4_S_d0_1_2 h_S_) main_v6 main_c_1
  let main_v8 : IVec S_ 1 := andi main_v3 main_v7
  main_v8
-- ==== Kernel.lean ====
abbrev S2000x8192x4 : Shape := ⟨3, ![2000, 8192, 4]⟩
abbrev S2000x32768 : Shape := ⟨2, ![2000, 32768]⟩
abbrev S1x32768 : Shape := ⟨2, ![1, 32768]⟩
abbrev S400x4096 : Shape := ⟨2, ![400, 4096]⟩
abbrev S1x4096 : Shape := ⟨2, ![1, 4096]⟩
abbrev S4096 : Shape := ⟨1, ![4096]⟩
abbrev S8192x4 : Shape := ⟨2, ![8192, 4]⟩
abbrev S_ : Shape := ⟨0, ![]⟩
abbrev S4 : Shape := ⟨1, ![4]⟩

abbrev nBuf : Space → Nat
  | .hbm => 46
  | .vmem => 16
  | .smem => 0
  | _ => 0

abbrev bufTy : (tb : Table) → Fin (tcTables nBuf tb) → BufTy
  | .hbm, ⟨0, _⟩ => ⟨S2000x8192x4, .f32⟩
  | .hbm, ⟨1, _⟩ => ⟨S2000x8192x4, .f32⟩
  | .hbm, ⟨2, _⟩ => ⟨S2000x32768, .f32⟩
  | .hbm, ⟨3, _⟩ => ⟨S2000x32768, .f32⟩
  | .hbm, ⟨4, _⟩ => ⟨S1x32768, .f32⟩
  | .hbm, ⟨5, _⟩ => ⟨S1x32768, .f32⟩
  | .hbm, ⟨6, _⟩ => ⟨S1x32768, .f32⟩
  | .hbm, ⟨7, _⟩ => ⟨S1x32768, .f32⟩
  | .hbm, ⟨8, _⟩ => ⟨S8192x4, .f32⟩
  | .hbm, ⟨9, _⟩ => ⟨S8192x4, .f32⟩
  | .hbm, ⟨10, _⟩ => ⟨S8192x4, .f32⟩
  | .hbm, ⟨11, _⟩ => ⟨S8192x4, .f32⟩
  | .hbm, ⟨12, _⟩ => ⟨S_, .f32⟩
  | .hbm, ⟨13, _⟩ => ⟨S8192x4, .f32⟩
  | .hbm, ⟨14, _⟩ => ⟨S8192x4, .f32⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S_, .f32⟩
  | .hbm, ⟨19, _⟩ => ⟨S8192x4, .f32⟩
  | .hbm, ⟨20, _⟩ => ⟨S8192x4, .i1⟩
  | .hbm, ⟨21, _⟩ => ⟨S_, .f32⟩
  | .hbm, ⟨22, _⟩ => ⟨S8192x4, .f32⟩
  | .hbm, ⟨23, _⟩ => ⟨S8192x4, .i1⟩
  | .hbm, ⟨24, _⟩ => ⟨S8192x4, .i1⟩
  | .hbm, ⟨25, _⟩ => ⟨S_, .f32⟩
  | .hbm, ⟨26, _⟩ => ⟨S_, .f32⟩
  | .hbm, ⟨27, _⟩ => ⟨S8192x4, .f32⟩
  | .hbm, ⟨28, _⟩ => ⟨S8192x4, .f32⟩
  | .hbm, ⟨29, _⟩ => ⟨S8192x4, .f32⟩
  | .hbm, ⟨30, _⟩ => ⟨S_, .f32⟩
  | .hbm, ⟨31, _⟩ => ⟨S8192x4, .f32⟩
  | .hbm, ⟨32, _⟩ => ⟨S8192x4, .f32⟩
  | .hbm, ⟨33, _⟩ => ⟨S_, .f32⟩
  | .hbm, ⟨34, _⟩ => ⟨S_, .f32⟩
  | .hbm, ⟨35, _⟩ => ⟨S8192x4, .f32⟩
  | .hbm, ⟨36, _⟩ => ⟨S8192x4, .f32⟩
  | .hbm, ⟨37, _⟩ => ⟨S_, .f32⟩
  | .hbm, ⟨38, _⟩ => ⟨S4, .f32⟩
  | .hbm, ⟨39, _⟩ => ⟨S8192x4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S_, .f32⟩
  | .local _ .vmem, ⟨0, _⟩ => ⟨S400x4096, .f32⟩
  | .local _ .vmem, ⟨1, _⟩ => ⟨S400x4096, .f32⟩
  | .local _ .vmem, ⟨2, _⟩ => ⟨S400x4096, .f32⟩
  | .local _ .vmem, ⟨3, _⟩ => ⟨S400x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | .local _ .vmem, ⟨15, _⟩ => ⟨S1x4096, .f32⟩
  | _, _ => ⟨S2000x8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v46 : BitVec 1 := Scalar.cmpi .eq arg1 c4_i32
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S400x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2000x8192x4_S2000x32768 : S2000x8192x4.ShapeCasts S2000x32768
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S400x4096_S400x4096_0_0 : ∀ a, (![0, 0] : Fin 2 → Nat) a + S400x4096.size a ≤ S400x4096.size a
  h_S400x4096 : 0 < S400x4096.numel
  shapeCasts_S400x4096_S400x4096 : S400x4096.ShapeCasts S400x4096
  natLt_1_32 : 1 < 32
  reduces_S400x4096_S4096 : S400x4096.Reduces [0] S4096
  shapeCasts_S4096_S1x4096 : S4096.ShapeCasts S1x4096
  shapeCasts_S1x32768_S8192x4 : S1x32768.ShapeCasts S8192x4
  bcast_S_S8192x4 : S_.BroadcastsInDim S8192x4 (![] : Fin 0 → Fin S8192x4.rank)
  reducesTo_S8192x4_S4_d0 : S8192x4.ReducesTo [0] S4
  h_S_ : 0 < S_.numel
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4096.size a ≤ S2000x32768.size a
  hwx0_0 : ∀ i : grid0.Coords, EltTy.bits .f32 = 32 ∨ (Rect.block (s := S2000x32768) S400x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4096.size a ≤ S2000x32768.size a
  hwx0_1 : ∀ i : grid0.Coords, EltTy.bits .f32 = 32 ∨ (Rect.block (s := S2000x32768) S400x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x32768.size a
  hwx0_2 : ∀ i : grid0.Coords, EltTy.bits .f32 = 32 ∨ (Rect.block (s := S1x32768) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x32768.size a
  hwx0_3 : ∀ i : grid0.Coords, EltTy.bits .f32 = 32 ∨ (Rect.block (s := S1x32768) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x32768.size a
  hwx0_4 : ∀ i : grid0.Coords, EltTy.bits .f32 = 32 ∨ (Rect.block (s := S1x32768) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x32768.size a
  hwx0_5 : ∀ i : grid0.Coords, EltTy.bits .f32 = 32 ∨ (Rect.block (s := S1x32768) S1x4096.size (cc0_transform_5 i) (hinb0_5 i)).WholeWords (EltTy.packing .f32)

variable [Facts₀]

abbrev win0_0 : Pipeline.Window sig grid0 :=
  Pipeline.Window.ofSpec (Memref.whole main_v0) S400x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2000x8192x4 : Shape := ⟨3, ![2000, 8192, 4]⟩
abbrev S_ : Shape := ⟨0, ![]⟩
abbrev S8192x4 : Shape := ⟨2, ![8192, 4]⟩
abbrev S1x8192x4 : Shape := ⟨3, ![1, 8192, 4]⟩
abbrev S4 : Shape := ⟨1, ![4]⟩

abbrev nBuf : Space → Nat
  | .hbm => 65
  | .vmem => 0
  | .smem => 0
  | _ => 0

abbrev bufTy : (tb : Table) → Fin (tcTables nBuf tb) → BufTy
  | .hbm, ⟨0, _⟩ => ⟨S2000x8192x4, .f32⟩
  | .hbm, ⟨1, _⟩ => ⟨S2000x8192x4, .f32⟩
  | .hbm, ⟨2, _⟩ => ⟨S2000x8192x4, .i1⟩
  | .hbm, ⟨3, _⟩ => ⟨S2000x8192x4, .i1⟩
  | .hbm, ⟨4, _⟩ => ⟨S_, .f32⟩
  | .hbm, ⟨5, _⟩ => ⟨S_, .f32⟩
  | .hbm, ⟨6, _⟩ => ⟨S2000x8192x4, .f32⟩
  | .hbm, ⟨7, _⟩ => ⟨S2000x8192x4, .f32⟩
  | .hbm, ⟨8, _⟩ => ⟨S_, .f32⟩
  | .hbm, ⟨9, _⟩ => ⟨S_, .f32⟩
  | .hbm, ⟨10, _⟩ => ⟨S2000x8192x4, .f32⟩
  | .hbm, ⟨11, _⟩ => ⟨S2000x8192x4, .f32⟩
  | .hbm, ⟨12, _⟩ => ⟨S2000x8192x4, .i32⟩
  | .hbm, ⟨13, _⟩ => ⟨S_, .i32⟩
  | .hbm, ⟨14, _⟩ => ⟨S8192x4, .i32⟩
  | .hbm, ⟨15, _⟩ => ⟨S_, .i32⟩
  | .hbm, ⟨16, _⟩ => ⟨S8192x4, .i32⟩
  | .hbm, ⟨17, _⟩ => ⟨S8192x4, .i32⟩
  | .hbm, ⟨18, _⟩ => ⟨S8192x4, .f32⟩
  | .hbm, ⟨19, _⟩ => ⟨S_, .f32⟩
  | .hbm, ⟨20, _⟩ => ⟨S8192x4, .f32⟩
  | .hbm, ⟨21, _⟩ => ⟨S8192x4, .f32⟩
  | .hbm, ⟨22, _⟩ => ⟨S1x8192x4, .f32⟩
  | .hbm, ⟨23, _⟩ => ⟨S2000x8192x4, .f32⟩
  | .hbm, ⟨24, _⟩ => ⟨S2000x8192x4, .f32⟩
  | .hbm, ⟨25, _⟩ => ⟨S_, .f32⟩
  | .hbm, ⟨26, _⟩ => ⟨S_, .f32⟩
  | .hbm, ⟨27, _⟩ => ⟨S2000x8192x4, .f32⟩
  | .hbm, ⟨28, _⟩ => ⟨S2000x8192x4, .f32⟩
  | .hbm, ⟨29, _⟩ => ⟨S2000x8192x4, .f32⟩
  | .hbm, ⟨30, _⟩ => ⟨S_, .f32⟩
  | .hbm, ⟨31, _⟩ => ⟨S8192x4, .f32⟩
  | .hbm, ⟨32, _⟩ => ⟨S2000x8192x4, .f32⟩
  | .hbm, ⟨33, _⟩ => ⟨S2000x8192x4, .f32⟩
  | .hbm, ⟨34, _⟩ => ⟨S_, .f32⟩
  | .hbm, ⟨35, _⟩ => ⟨S8192x4, .f32⟩
  | .hbm, ⟨36, _⟩ => ⟨S_, .i32⟩
  | .hbm, ⟨37, _⟩ => ⟨S8192x4, .i32⟩
  | .hbm, ⟨38, _⟩ => ⟨S8192x4, .i1⟩
  | .hbm, ⟨39, _⟩ => ⟨S_, .f32⟩
  | .hbm, ⟨40, _⟩ => ⟨S8192x4, .f32⟩
  | .hbm, ⟨41, _⟩ => ⟨S8192x4, .i1⟩
  | .hbm, ⟨42, _⟩ => ⟨S8192x4, .i1⟩
  | .hbm, ⟨43, _⟩ => ⟨S_, .f32⟩
  | .hbm, ⟨44, _⟩ => ⟨S_, .f32⟩
  | .hbm, ⟨45, _⟩ => ⟨S8192x4, .f32⟩
  | .hbm, ⟨46, _⟩ => ⟨S8192x4, .f32⟩
  | .hbm, ⟨47, _⟩ => ⟨S8192x4, .f32⟩
  | .hbm, ⟨48, _⟩ => ⟨S_, .f32⟩
  | .hbm, ⟨49, _⟩ => ⟨S8192x4, .f32⟩
  | .hbm, ⟨50, _⟩ => ⟨S8192x4, .f32⟩
  | .hbm, ⟨51, _⟩ => ⟨S_, .f32⟩
  | .hbm, ⟨52, _⟩ => ⟨S_, .f32⟩
  | .hbm, ⟨53, _⟩ => ⟨S8192x4, .f32⟩
  | .hbm, ⟨54, _⟩ => ⟨S8192x4, .f32⟩
  | .hbm, ⟨55, _⟩ => ⟨S_, .f32⟩
  | .hbm, ⟨56, _⟩ => ⟨S4, .f32⟩
  | .hbm, ⟨57, _⟩ => ⟨S8192x4, .i32⟩
  | .hbm, ⟨58, _⟩ => ⟨S_, .i32⟩
  | .hbm, ⟨59, _⟩ => ⟨S4, .i32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S_, .f32⟩
  | _, _ => ⟨S2000x8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_cst_0 : Ref sig .tc := ⟨.hbm, 8, rfl⟩
abbrev main_call1_v0 : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call2_v0 : Ref sig .tc := ⟨.hbm, 26, rfl⟩
abbrev main_call2_v1 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_call3_v0 : Ref sig .tc := ⟨.hbm, 44, rfl⟩
abbrev main_call3_v1 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_v28 : Ref sig .tc := ⟨.hbm, 50, rfl⟩
abbrev main_cst_10 : Ref sig .tc := ⟨.hbm, 51, rfl⟩
abbrev main_call4_v0 : Ref sig .tc := ⟨.hbm, 52, rfl⟩
abbrev main_call4_v1 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_c_12 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_13 : Ref sig .tc := ⟨.hbm, 63, rfl⟩
abbrev main_v36 : Ref sig .tc := ⟨.hbm, 64, rfl⟩

abbrev nD : Nat := 1
abbrev τ : Topo := Topo.v7x

variable {F : FTy → Type} [FloatOps F]

class Facts₀ : Prop where
  bcast_S_S2000x8192x4 : S_.BroadcastsInDim S2000x8192x4 (![] : Fin 0 → Fin S2000x8192x4.rank)
  natLt_1_32 : 1 < 32
  reducesTo_S2000x8192x4_S8192x4_d0 : S2000x8192x4.ReducesTo [0] S8192x4
  h_S_ : 0 < S_.numel
  bcast_S_S8192x4 : S_.BroadcastsInDim S8192x4 (![] : Fin 0 → Fin S8192x4.rank)
  bcast_S8192x4_S1x8192x4_1_2 : S8192x4.BroadcastsInDim S1x8192x4 (![1, 2] : Fin 2 → Fin S1x8192x4.rank)
  bcast_S1x8192x4_S2000x8192x4_0_1_2 : S1x8192x4.BroadcastsInDim S2000x8192x4 (![0, 1, 2] : Fin 3 → Fin S2000x8192x4.rank)
  reducesTo_S8192x4_S4_d0 : S8192x4.ReducesTo [0] S4
  reducesTo_S4_S_d0 : S4.ReducesTo [0] S_

variable [Facts₀]

class Facts : Prop extends Facts₀ where

variable [Facts]
-- ==== Proof.NseSpec.lean ====
/-
  The masked Nash–Sutcliffe loss, written twice as a closed formula over the extended reals.

  Inputs: `o` (the model output) and `t` (the observed target), each indexed by (timestep r < 2000, gage g < 8192,
  channel k < 4). Over the extended reals no value is "missing" (an element differs from itself nowhere), so the
  observation mask is everywhere true and every column (g, k) counts all 2000 timesteps.

  Per column (g, k):
    the count                          n      = 2000
    the sum of the targets             S      = ∑ᵣ t r
    the sum of their squares           Q      = ∑ᵣ (t r)²
    the residual sum of squares        ssres  = ∑ᵣ (t r − o r)²
    the total sum of squares, in the STREAMING form   sst = Q − S² / n          (`sstK`)
                              and in the CENTRED form  sst = ∑ᵣ (t r − S / n)²   (`sstR`)
  A column is valid when its count is positive and its total sum of squares is not zero; a valid column scores
  1 − ssres / sst, an invalid one scores 0. The loss is ∑ₖ −( (∑_g score g k) / (number of valid columns of channel k) ).

  `finish` is the part both formulas share: from the validity bits, the two sums of squares and the per-channel
  divisor to the loss. `lossK` uses the streaming form, counts by adding 1.0 per timestep, and takes the divisor as a
  sum of 0.0 / 1.0; `lossR` uses the centred form and takes the divisor as the cardinality of the valid set.
  Float literals stay as their words (`one32`, `zero32`): the same word on both sides is never evaluated.
-/
import Idealize.ShloMosaic.PureOps.Ideal
import Idealize.ShloMosaic.PureOps.Ideal.Laws
import Idealize.ShloMosaic.Lib.ValueIdx

noncomputable section

open scoped BigOperators

namespace Cert.NSE

open Idealize.ShloMosaic Idealize.ShloMosaic.ValueIdx

/-- The literal 1.0 and the literal 0.0, as the extended reals their words denote. -/
abbrev one32 : EReal := Ideal.ofBits .f32 0x3F800000#32
abbrev zero32 : EReal := Ideal.ofBits .f32 0x00000000#32

/-- An input array: one extended real per (timestep, gage, channel). -/
abbrev Arr3 : Type := (⟨3, ![2000, 8192, 4]⟩ : Shape).Idx → EReal

/-- The shared finish: per-column score (1 − ssres / sst where valid, else 0), summed over the gages, divided by
    the channel's divisor, negated, summed over the four channels. Each sum starts from the literal 0.0. -/
def finish (v : Fin 8192 → Fin 4 → BitVec 1) (sst ssres : Fin 8192 → Fin 4 → EReal) (den : Fin 4 → EReal) : EReal :=
  zero32 + ∑ k : Fin 4, -(Ideal.div (zero32 + ∑ g : Fin 8192,
      Scalar.select (v g k) (one32 - Ideal.div (ssres g k) (Scalar.select (v g k) (sst g k) one32)) zero32) (den k))

section
variable (o t : Arr3)

/-! ### The streaming form -/

/-- The count of a column, adding 1 per timestep. -/
def cntK (_g : Fin 8192) (_k : Fin 4) : EReal := ∑ _r : Fin 2000, (1 : EReal)
/-- The sum of a column's targets. -/
def sumtK (g : Fin 8192) (k : Fin 4) : EReal := ∑ r : Fin 2000, t (ix3 r g k)
/-- The sum of the squares of a column's targets. -/
def sumt2K (g : Fin 8192) (k : Fin 4) : EReal := ∑ r : Fin 2000, t (ix3 r g k) * t (ix3 r g k)
/-- The residual sum of squares of a column. -/
def ssresK (g : Fin 8192) (k : Fin 4) : EReal :=
  ∑ r : Fin 2000, (t (ix3 r g k) - o (ix3 r g k)) * (t (ix3 r g k) - o (ix3 r g k))
/-- The total sum of squares by the sum-of-squares identity: Q − S² / max(n, 1). -/
def sstK (g : Fin 8192) (k : Fin 4) : EReal :=
  sumt2K t g k - Ideal.div (sumtK t g k * sumtK t g k) (max (cntK g k) one32)
/-- Valid: the count is positive and the total sum of squares is not zero. -/
def validK (g : Fin 8192) (k : Fin 4) : BitVec 1 :=
  IntOp.andi (Ideal.cmp .ogt (cntK g k) zero32) (Ideal.cmp .une (sstK t g k) zero32)
/-- The divisor of channel k: 0.0 plus 1.0 per valid gage (the validity bit read unsigned). -/
def denK (k : Fin 4) : EReal := zero32 + ∑ g : Fin 8192, (((validK t g k).toNat : ℝ) : EReal)
/-- The loss in the streaming form. -/
def lossK : EReal := finish (validK t) (sstK t) (ssresK o t) (denK t)

/-! ### The centred form -/

/-- The mean of a column's targets: the sum (from the literal 0.0) over the count 2000. -/
def meanR (g : Fin 8192) (k : Fin 4) : EReal := Ideal.div (zero32 + ∑ r : Fin 2000, t (ix3 r g k)) ((2000 : ℝ) : EReal)
/-- The total sum of squares about the mean. -/
def sstR (g : Fin 8192) (k : Fin 4) : EReal :=
  zero32 + ∑ r : Fin 2000, (t (ix3 r g k) - meanR t g k) * (t (ix3 r g k) - meanR t g k)
/-- The residual sum of squares of a column (from the literal 0.0). -/
def ssresR (g : Fin 8192) (k : Fin 4) : EReal :=
  zero32 + ∑ r : Fin 2000, (t (ix3 r g k) - o (ix3 r g k)) * (t (ix3 r g k) - o (ix3 r g k))
/-- Valid: the count 2000 is positive (bit 1), and the total sum of squares is not zero. -/
def validR (g : Fin 8192) (k : Fin 4) : BitVec 1 := IntOp.andi 1#1 (Ideal.cmp .une (sstR t g k) zero32)
/-- The divisor of channel k: the number of valid gages. -/
def denR (k : Fin 4) : EReal :=
  ((((Finset.univ.filter fun g : Fin 8192 => validR t g k = 1#1).card : ℕ) : ℝ) : EReal)
/-- The loss in the centred form. -/
def lossR : EReal := finish (validR t) (sstR t) (ssresR o t) (denR t)

end

/-! ### The streaming form over given column statistics -/

section
variable (cnt sumt sumt2 ssres : Fin 8192 → Fin 4 → EReal)

/-- The total sum of squares from a column's count, sum and sum of squares: Q − S² / max(n, 1). -/
def sstOf (g : Fin 8192) (k : Fin 4) : EReal :=
  sumt2 g k - Ideal.div (sumt g k * sumt g k) (max (cnt g k) one32)
/-- Valid: the count is positive and the total sum of squares is not zero. -/
def validOf (g : Fin 8192) (k : Fin 4) : BitVec 1 :=
  IntOp.andi (Ideal.cmp .ogt (cnt g k) zero32) (Ideal.cmp .une (sstOf cnt sumt sumt2 g k) zero32)
/-- The divisor of channel k: 0.0 plus 1.0 per valid gage (the validity bit read unsigned). -/
def denOf (k : Fin 4) : EReal := zero32 + ∑ g : Fin 8192, (((validOf cnt sumt sumt2 g k).toNat : ℝ) : EReal)
/-- The loss from the four column statistics. -/
def lossOf : EReal := finish (validOf cnt sumt sumt2) (sstOf cnt sumt sumt2) ssres (denOf cnt sumt sumt2)
end

/-- The streaming form of the loss is the loss of its own four column statistics. -/
theorem lossK_eq_lossOf (o t : Arr3) : lossK o t = lossOf cntK (sumtK t) (sumt2K t) (ssresK o t) := rfl

/-- Column (g, k) in a row of 8192 · 4 = 32768 entries laid out gage-major: position 4 g + k. -/
def col (g : Fin 8192) (k : Fin 4) : Fin 32768 := ⟨g.val * 4 + k.val, by have := g.isLt; have := k.isLt; omega⟩

end Cert.NSE

end
-- ==== Proof.NseAlgebra.lean ====
/-
  The streaming form of the masked Nash–Sutcliffe loss equals the centred form when every input is a real number.

  Column by column: the count is 2000, so the streaming divisor max(n, 1) is 2000; for real targets
  ∑ᵣ (tᵣ − S/2000)² = ∑ᵣ tᵣ² − S²/2000 with S = ∑ᵣ tᵣ (expand the square, ∑ᵣ 1 = 2000); the residual sums differ only
  by the leading literal 0.0; hence the validity bits agree, and the divisor — a sum of 0.0 / 1.0 over the gages — is
  the number of valid gages.
-/
import proofs.«123647_j7301444403966_1_alg».proof.Proof.NseSpec
import Idealize.ShloMosaic.Lib.IdealHost
import Mathlib.Data.EReal.Basic
import Mathlib.Data.EReal.Operations
import Mathlib.Algebra.BigOperators.Group.Finset.Basic
import Mathlib.Algebra.BigOperators.Group.Finset.Piecewise
import Mathlib.Algebra.BigOperators.Ring.Finset

noncomputable section

open scoped BigOperators

namespace Cert.NSE

open Idealize.ShloMosaic Idealize.ShloMosaic.ValueIdx

/-! ### The two literals -/

/-- The word of 0.0 denotes zero. -/
theorem zero32_eq : zero32 = 0 := Ideal.ofBits_zero_f32

/-- The word of 1.0 denotes one. -/
theorem one32_eq : one32 = 1 := Ideal.ofBits_one_f32

/-! ### Finite sums of reals inside the extended reals -/

/-- The inclusion of the reals into the extended reals carries a finite sum to the sum of the inclusions
    (the inclusion is additive and sends 0 to 0; induct on the index set). -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The count of a column -/

/-- Adding 1 over the 2000 timesteps gives 2000. -/
theorem cntK_eq (g : Fin 8192) (k : Fin 4) : cntK g k = ((2000 : ℝ) : EReal) := by
  unfold cntK
  rw [← EReal.coe_one, ← coe_sum]
  congr 1
  simp

/-- The streaming divisor max(n, 1) is 2000, because 1 ≤ 2000. -/
theorem max_cnt (g : Fin 8192) (k : Fin 4) : max (cntK g k) one32 = ((2000 : ℝ) : EReal) := by
  rw [cntK_eq, one32_eq, ← EReal.coe_one]
  exact max_eq_left (EReal.coe_le_coe_iff.mpr (by norm_num))

/-- The count 2000 is positive, so its comparison bit with 0.0 is set. -/
theorem cnt_pos_bit (g : Fin 8192) (k : Fin 4) : Ideal.cmp .ogt (cntK g k) zero32 = 1#1 := by
  rw [cntK_eq, zero32_eq]
  have h : (0 : EReal) < ((2000 : ℝ) : EReal) := EReal.coe_pos.mpr (by norm_num)
  simp [Ideal.cmp, h]

/-! ### The sum-of-squares identity over the reals -/

/-- For 2000 reals with sum S:  ∑ᵣ (fᵣ − S/2000)² = ∑ᵣ fᵣ² − S²/2000.
    Expand each square as fᵣ² − 2c·fᵣ + c² with c = S/2000, sum the three parts (∑ᵣ c² = 2000·c²), and collect. -/
theorem real_centred_eq_streaming (f : Fin 2000 → ℝ) :
    ∑ r, (f r - (∑ r, f r) * (1 / 2000)) * (f r - (∑ r, f r) * (1 / 2000))
      = (∑ r, f r * f r) - (∑ r, f r) * (∑ r, f r) * (1 / 2000) := by
  generalize hS : ∑ r, f r = S
  have h1 : ∀ r, (f r - S * (1 / 2000)) * (f r - S * (1 / 2000))
      = f r * f r - (2 * (S * (1 / 2000))) * f r + (S * (1 / 2000)) * (S * (1 / 2000)) := fun r => by ring
  simp only [h1]
  rw [Finset.sum_add_distrib, Finset.sum_sub_distrib, ← Finset.mul_sum, Finset.sum_const, Finset.card_univ,
    Fintype.card_fin, hS, nsmul_eq_mul]
  push_cast
  ring

/-- The same identity inside the extended reals, in the two shapes the loss formulas use: every term is the
    inclusion of a real, division by 2000 is the product with 1/2000, and the leading zeros drop. -/
theorem ereal_streaming_eq_centred (f : Fin 2000 → ℝ) :
    (∑ r, (f r : EReal) * (f r : EReal))
        - Ideal.div ((∑ r, (f r : EReal)) * (∑ r, (f r : EReal))) ((2000 : ℝ) : EReal)
      = 0 + ∑ r, ((f r : EReal) - Ideal.div (0 + ∑ r, (f r : EReal)) ((2000 : ℝ) : EReal))
            * ((f r : EReal) - Ideal.div (0 + ∑ r, (f r : EReal)) ((2000 : ℝ) : EReal)) := by
  have h2000 : (2000 : ℝ) ≠ 0 := by norm_num
  simp only [zero_add, Ideal.div_coe h2000, ← coe_sum, ← EReal.coe_mul, ← EReal.coe_sub]
  rw [real_centred_eq_streaming]

/-! ### Column by column -/

section
variable (o t : Arr3)

/-- For real targets the streaming and the centred total sums of squares of a column agree. -/
theorem sstK_eq_sstR (ht : ∀ i, ∃ x : ℝ, t i = (x : EReal)) (g : Fin 8192) (k : Fin 4) :
    sstK t g k = sstR t g k := by
  choose tt htt using ht
  unfold sstK sstR meanR sumt2K sumtK
  rw [max_cnt, zero32_eq]
  simp only [htt]
  exact ereal_streaming_eq_centred fun r => tt (ix3 r g k)

/-- The residual sums of squares differ only by the leading 0.0. -/
theorem ssresK_eq_ssresR (g : Fin 8192) (k : Fin 4) : ssresK o t g k = ssresR o t g k := by
  unfold ssresK ssresR
  rw [zero32_eq, zero_add]

/-- The validity bits agree: the count's bit is set, and the two total sums of squares are equal. -/
theorem validK_eq_validR (ht : ∀ i, ∃ x : ℝ, t i = (x : EReal)) (g : Fin 8192) (k : Fin 4) :
    validK t g k = validR t g k := by
  unfold validK validR
  rw [cnt_pos_bit, sstK_eq_sstR t ht]

end

/-! ### The divisor -/

/-- A one-bit word read unsigned is 1 when the bit is set and 0 otherwise. -/
theorem bit_toNat (b : BitVec 1) : b.toNat = if b = 1#1 then 1 else 0 := by
  rcases BitVec.eq_zero_or_eq_one b with rfl | rfl <;> decide

/-- Adding the bits (read as 0.0 / 1.0) of a family of one-bit words counts the words whose bit is set. -/
theorem sum_bits_eq_card (v : Fin 8192 → BitVec 1) :
    ∑ g : Fin 8192, ((((v g).toNat : ℕ) : ℝ) : EReal)
      = ((((Finset.univ.filter fun g : Fin 8192 => v g = 1#1).card : ℕ) : ℝ) : EReal) := by
  rw [← coe_sum, Finset.card_filter, Nat.cast_sum]
  congr 1
  exact Finset.sum_congr rfl fun g _ => by rw [bit_toNat]

/-- The divisor of a channel, a sum of 0.0 / 1.0 from 0.0, is the number of its valid gages. -/
theorem denK_eq_denR (t : Arr3) (ht : ∀ i, ∃ x : ℝ, t i = (x : EReal)) (k : Fin 4) : denK t k = denR t k := by
  unfold denK denR
  rw [zero32_eq, zero_add]
  simp only [validK_eq_validR t ht]
  exact sum_bits_eq_card fun g => validR t g k

/-! ### The loss -/

/-- For real inputs the two closed formulas of the loss agree. -/
theorem lossK_eq_lossR (o t : Arr3) (ho : ∀ i, ∃ x : ℝ, o i = (x : EReal)) (ht : ∀ i, ∃ x : ℝ, t i = (x : EReal)) :
    lossK o t = lossR o t := by
  have _ := ho
  have hv : validK t = validR t := funext fun g => funext fun k => validK_eq_validR t ht g k
  have hs : sstK t = sstR t := funext fun g => funext fun k => sstK_eq_sstR t ht g k
  have hr : ssresK o t = ssresR o t := funext fun g => funext fun k => ssresK_eq_ssresR o t g k
  have hd : denK t = denR t := funext fun k => denK_eq_denR t ht k
  unfold lossK lossR
  rw [hv, hs, hr, hd]

end Cert.NSE

end
-- ==== Proof.NseFinite.lean ====
/-
  The precondition, read: every entry of both inputs is a real number.

  The precondition is the conjunction, over both inputs, of "every |x| is below +∞". Over the extended reals |x| is
  max x (−x), which is below +∞ exactly when x is neither +∞ nor −∞, that is, when x is (the image of) a real.
-/
import proofs.«123647_j7301444403966_1_alg».proof.Pre_finite_inputs
import Idealize.ShloMosaic.PureOps.Ideal.Laws
import Idealize.ShloMosaic.Lib.ValueIdx
import Idealize.ShloMosaic.Lib.ReduceAll

noncomputable section

open Idealize.ShloMosaic Idealize.ShloMosaic.ValueIdx

namespace Cert.NSE

/-- The single-precision word with all exponent bits set and no fraction bits denotes +∞. -/
theorem ofBits_inf : Ideal.ofBits .f32 0x7F800000#32 = (⊤ : EReal) := by
  simp [Ideal.ofBits, Ideal.ieee]

/-- A strict "less than" comparison whose bit is 1 says the left value is strictly below the right one. -/
theorem lt_of_cmp_olt (a b : EReal) (h : Ideal.cmp .olt a b = 1#1) : a < b := by
  by_contra hn
  simp [Ideal.cmp, hn] at h

/-- An extended real whose absolute value max a (−a) is below +∞ is a real: at −∞ and at +∞ that maximum is +∞. -/
theorem real_of_abs_lt_top (a : EReal) (h : max a (-a) < ⊤) : ∃ r : ℝ, a = (r : EReal) := by
  induction a using EReal.rec with
  | bot => simp at h
  | coe r => exact ⟨r, rfl⟩
  | top => simp at h

/-- The rank-0 shape has exactly one index. -/
instance : Subsingleton Cert.Pre_finite_inputs.S_.Idx := ⟨fun a b => funext fun d => d.elim0⟩

/-- One input's half of the precondition: if the conjunction over all entries of "|a i| < +∞" is 1,
    each entry is a real. The conjunction being 1 gives each entry's bit as 1; that bit compares
    max (a i) (−(a i)) with +∞. -/
theorem real_of_all_abs_lt_inf [Cert.Pre_finite_inputs.Facts]
    (a : FVec Ideal Cert.Pre_finite_inputs.S2000x8192x4 .f32)
    (h : Host.reduce IntOp.andi
        (cmpf CmpFPredicate.olt (Host.absf a)
          (broadcastInDim Cert.Pre_finite_inputs.S2000x8192x4 ![]
            Cert.Pre_finite_inputs.Facts.bcast_S_S2000x8192x4
            (constant Cert.Pre_finite_inputs.S_ .f32 0x7F800000#32)))
        (constantI Cert.Pre_finite_inputs.S_ 1 1#1)
        Cert.Pre_finite_inputs.Facts.reducesTo_S2000x8192x4_S_d0_1_2
        Cert.Pre_finite_inputs.Facts.h_S_ ix0 = 1#1)
    (i : Cert.Pre_finite_inputs.S2000x8192x4.Idx) : ∃ r : ℝ, a i = (r : EReal) := by
  have e := Host.reduce_andi_all _ _ _ _ _ h i
  change Ideal.cmp .olt (max (a i) (-(a i))) (Ideal.ofBits .f32 0x7F800000#32) = 1#1 at e
  rw [ofBits_inf] at e
  exact real_of_abs_lt_top (a i) (lt_of_cmp_olt _ _ e)

/-- If the printed precondition evaluates to true on two input arrays, every entry of each is a real number. -/
theorem finite_of_pre [Cert.Pre_finite_inputs.Facts]
    (x y : FVec Ideal Cert.Pre_finite_inputs.S2000x8192x4 .f32)
    (h : Cert.Pre_finite_inputs.fn (F := Ideal) x y = fun _ => 1#1) :
    (∀ i, ∃ r : ℝ, x i = (r : EReal)) ∧ (∀ i, ∃ r : ℝ, y i = (r : EReal)) := by
  -- the value at the one index of the rank-0 result, then the final "and" split into its two halves
  have h0 := congrFun h ValueIdx.ix0
  dsimp only [Cert.Pre_finite_inputs.fn] at h0
  obtain ⟨hx, hy⟩ := IntOp.andi_eq_one.1 h0
  exact ⟨real_of_all_abs_lt_inf x hx, real_of_all_abs_lt_inf y hy⟩

end Cert.NSE

end
-- ==== Proof.KPieces.lean ====
/-
  What one run of the kernel body leaves in its four accumulators and, at a column block's last row block, in its four
  outputs — each as the body's own arithmetic applied to the two input blocks and to the accumulators' previous contents.

  The body keeps four [1, 4096] accumulators (a count, ∑ t, ∑ t², ∑ (t − o)²), resets them to zero at the first row
  block of a column block, adds the current [400, 4096] row block's column sums at every row block, and copies them to the
  four outputs at the last row block. `x0` is the block of the model output, `x1` the block of the target.
-/
import proofs.«123647_j7301444403966_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.NSE

open Cert.KernelIdeal Cert.KernelIdeal.Gen

variable {F : FTy → Type} [FloatOps F]

/-- The zero offsets of a whole-buffer rectangle, however they are spelt. -/
theorem hz : (![0, 0] : Fin 2 → Nat) = fun _ => 0 := funext fun a => by fin_cases a <;> rfl

/-- The first row block of a column block: accumulator 0 (the count) is reset to zero and then takes this block's partial sum. -/
theorem sA0 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : cond0_0 i) (hc1 : ¬cond0_1 i)
    (x0 : Vec F S400x4096 .f32) (x1 : Vec F S400x4096 .f32) :
    sout0_A_0 c i arg2 harg2 arg3 harg3 arg4 harg4 arg5 harg5 arg6 harg6 arg7 harg7 arg8 harg8 arg9 harg9 arg10 harg10 arg11 harg11 hc0 hc1 x0 x1 = k0_pay11 x1 k0_pay3 := by
  -- the accumulator's pieces cover it, so what is read back is what the pieces alone leave
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  -- two whole-buffer stores, the zero row and then the update: the later one stands, and the update's
  -- own read of the accumulator saw the zero row that the first store had just left
  rw [View.canon_cons_unit_zero (S := S1x4096) hz, View.readCov_unit_zero (S := S1x4096) _ hz]
  -- a whole-block load of a buffer holding `x` reads `x`
  simp only [View.readAt_eq_ld, harg3.read_unread,
    View.ld_unit_zero (S := S400x4096) hz]

/-- The first row block of a column block: accumulator 1 (the sum of the targets) is reset to zero and then takes this block's partial sum. -/
theorem sA1 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : cond0_0 i) (hc1 : ¬cond0_1 i)
    (x0 : Vec F S400x4096 .f32) (x1 : Vec F S400x4096 .f32) :
    sout0_A_1 c i arg2 harg2 arg3 harg3 arg4 harg4 arg5 harg5 arg6 harg6 arg7 harg7 arg8 harg8 arg9 harg9 arg10 harg10 arg11 harg11 hc0 hc1 x0 x1 = k0_pay12 x1 k0_pay4 := by
  -- the accumulator's pieces cover it, so what is read back is what the pieces alone leave
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  -- two whole-buffer stores, the zero row and then the update: the later one stands, and the update's
  -- own read of the accumulator saw the zero row that the first store had just left
  rw [View.canon_cons_unit_zero (S := S1x4096) hz, View.readCov_unit_zero (S := S1x4096) _ hz]
  -- a whole-block load of a buffer holding `x` reads `x`
  simp only [View.readAt_eq_ld, harg3.read_unread,
    View.ld_unit_zero (S := S400x4096) hz]

/-- The first row block of a column block: accumulator 2 (the sum of the squared targets) is reset to zero and then takes this block's partial sum. -/
theorem sA2 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : cond0_0 i) (hc1 : ¬cond0_1 i)
    (x0 : Vec F S400x4096 .f32) (x1 : Vec F S400x4096 .f32) :
    sout0_A_2 c i arg2 harg2 arg3 harg3 arg4 harg4 arg5 harg5 arg6 harg6 arg7 harg7 arg8 harg8 arg9 harg9 arg10 harg10 arg11 harg11 hc0 hc1 x0 x1 = k0_pay1 k0_pay5 (k0_pay13 x1) := by
  -- the accumulator's pieces cover it, so what is read back is what the pieces alone leave
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  -- two whole-buffer stores, the zero row and then the update: the later one stands, and the update's
  -- own read of the accumulator saw the zero row that the first store had just left
  rw [View.canon_cons_unit_zero (S := S1x4096) hz, View.readCov_unit_zero (S := S1x4096) _ hz]
  -- a whole-block load of a buffer holding `x` reads `x`
  simp only [View.readAt_eq_ld, harg3.read_unread,
    View.ld_unit_zero (S := S400x4096) hz]

/-- The first row block of a column block: accumulator 3 (the sum of the squared residuals) is reset to zero and then takes this block's partial sum. -/
theorem sA3 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : cond0_0 i) (hc1 : ¬cond0_1 i)
    (x0 : Vec F S400x4096 .f32) (x1 : Vec F S400x4096 .f32) :
    sout0_A_3 c i arg2 harg2 arg3 harg3 arg4 harg4 arg5 harg5 arg6 harg6 arg7 harg7 arg8 harg8 arg9 harg9 arg10 harg10 arg11 harg11 hc0 hc1 x0 x1 = k0_pay2 (k0_pay10 x1 x0) k0_pay6 := by
  -- the accumulator's pieces cover it, so what is read back is what the pieces alone leave
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  -- two whole-buffer stores, the zero row and then the update: the later one stands, and the update's
  -- own read of the accumulator saw the zero row that the first store had just left
  rw [View.canon_cons_unit_zero (S := S1x4096) hz, View.readCov_unit_zero (S := S1x4096) _ hz]
  -- a whole-block load of a buffer holding `x` reads `x`
  simp only [View.readAt_eq_ld, harg2.read_unread, harg3.read_unread,
    View.ld_unit_zero (S := S400x4096) hz]

/-- A later row block: accumulator 0 (the count) takes this block's partial sum on top of what the block before left. -/
theorem sB0 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : ¬cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_B_0 c i arg2 harg2 arg3 harg3 arg4 harg4 arg5 harg5 arg6 harg6 arg7 harg7 arg8 harg8 arg9 harg9 arg10 harg10 arg11 harg11 hc0 hc1 x0 x1 xs0 xs1 xs2 xs3 = k0_pay11 x1 xs0 := by
  -- the accumulator's one piece covers it, so what is read back is that piece's payload
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  rw [View.canon_unit_zero hz]
  -- a whole-block load of a buffer holding `x` reads `x`
  simp only [View.readAt_eq_ld, harg3.read_unread, harg8.read_unread,
    View.ld_unit_zero (S := S400x4096) hz, View.ld_unit_zero (S := S1x4096) hz]

/-- A later row block: accumulator 1 (the sum of the targets) takes this block's partial sum on top of what the block before left. -/
theorem sB1 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : ¬cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_B_1 c i arg2 harg2 arg3 harg3 arg4 harg4 arg5 harg5 arg6 harg6 arg7 harg7 arg8 harg8 arg9 harg9 arg10 harg10 arg11 harg11 hc0 hc1 x0 x1 xs0 xs1 xs2 xs3 = k0_pay12 x1 xs1 := by
  -- the accumulator's one piece covers it, so what is read back is that piece's payload
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  rw [View.canon_unit_zero hz]
  -- a whole-block load of a buffer holding `x` reads `x`
  simp only [View.readAt_eq_ld, harg3.read_unread, harg9.read_unread,
    View.ld_unit_zero (S := S400x4096) hz, View.ld_unit_zero (S := S1x4096) hz]

/-- A later row block: accumulator 2 (the sum of the squared targets) takes this block's partial sum on top of what the block before left. -/
theorem sB2 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : ¬cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_B_2 c i arg2 harg2 arg3 harg3 arg4 harg4 arg5 harg5 arg6 harg6 arg7 harg7 arg8 harg8 arg9 harg9 arg10 harg10 arg11 harg11 hc0 hc1 x0 x1 xs0 xs1 xs2 xs3 = k0_pay1 xs2 (k0_pay13 x1) := by
  -- the accumulator's one piece covers it, so what is read back is that piece's payload
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz]
  -- a whole-block load of a buffer holding `x` reads `x`
  simp only [View.readAt_eq_ld, harg3.read_unread, harg10.read_unread,
    View.ld_unit_zero (S := S400x4096) hz, View.ld_unit_zero (S := S1x4096) hz]

/-- A later row block: accumulator 3 (the sum of the squared residuals) takes this block's partial sum on top of what the block before left. -/
theorem sB3 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : ¬cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_B_3 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay10 x1 x0) xs3 := by
  -- the accumulator's one piece covers it, so what is read back is that piece's payload
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz]
  -- a whole-block load of a buffer holding `x` reads `x`
  simp only [View.readAt_eq_ld, harg2.read_unread, harg3.read_unread, harg11.read_unread,
    View.ld_unit_zero (S := S400x4096) hz, View.ld_unit_zero (S := S1x4096) hz]

/-- A later row block: accumulator 0 (the count) takes this block's partial sum on top of what the block before left. -/
theorem sC0 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_C_0 c i arg2 harg2 arg3 harg3 arg4 harg4 arg5 harg5 arg6 harg6 arg7 harg7 arg8 harg8 arg9 harg9 arg10 harg10 arg11 harg11 hc0 hc1 x0 x1 xs0 xs1 xs2 xs3 = k0_pay11 x1 xs0 := by
  -- the accumulator's one piece covers it, so what is read back is that piece's payload
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  -- a whole-block load of a buffer holding `x` reads `x`
  simp only [View.readAt_eq_ld, harg3.read_unread, harg8.read_unread,
    View.ld_unit_zero (S := S400x4096) hz, View.ld_unit_zero (S := S1x4096) hz]

/-- A later row block: accumulator 1 (the sum of the targets) takes this block's partial sum on top of what the block before left. -/
theorem sC1 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_C_1 c i arg2 harg2 arg3 harg3 arg4 harg4 arg5 harg5 arg6 harg6 arg7 harg7 arg8 harg8 arg9 harg9 arg10 harg10 arg11 harg11 hc0 hc1 x0 x1 xs0 xs1 xs2 xs3 = k0_pay12 x1 xs1 := by
  -- the accumulator's one piece covers it, so what is read back is that piece's payload
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  -- a whole-block load of a buffer holding `x` reads `x`
  simp only [View.readAt_eq_ld, harg3.read_unread, harg9.read_unread,
    View.ld_unit_zero (S := S400x4096) hz, View.ld_unit_zero (S := S1x4096) hz]

/-- A later row block: accumulator 2 (the sum of the squared targets) takes this block's partial sum on top of what the block before left. -/
theorem sC2 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_C_2 c i arg2 harg2 arg3 harg3 arg4 harg4 arg5 harg5 arg6 harg6 arg7 harg7 arg8 harg8 arg9 harg9 arg10 harg10 arg11 harg11 hc0 hc1 x0 x1 xs0 xs1 xs2 xs3 = k0_pay1 xs2 (k0_pay13 x1) := by
  -- the accumulator's one piece covers it, so what is read back is that piece's payload
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  -- a whole-block load of a buffer holding `x` reads `x`
  simp only [View.readAt_eq_ld, harg3.read_unread, harg10.read_unread,
    View.ld_unit_zero (S := S400x4096) hz, View.ld_unit_zero (S := S1x4096) hz]

/-- A later row block: accumulator 3 (the sum of the squared residuals) takes this block's partial sum on top of what the block before left. -/
theorem sC3 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    sout0_C_3 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay10 x1 x0) xs3 := by
  -- the accumulator's one piece covers it, so what is read back is that piece's payload
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz]
  -- a whole-block load of a buffer holding `x` reads `x`
  simp only [View.readAt_eq_ld, harg2.read_unread, harg3.read_unread, harg11.read_unread,
    View.ld_unit_zero (S := S400x4096) hz, View.ld_unit_zero (S := S1x4096) hz]

/-- The last row block of a column block: output 2 receives accumulator 0's final contents (the count). -/
theorem oC2 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    out0_C_2 c i arg2 harg2 arg3 harg3 arg4 harg4 arg5 harg5 arg6 harg6 arg7 harg7 arg8 harg8 arg9 harg9 arg10 harg10 arg11 harg11 hc0 hc1 x0 x1 xs0 xs1 xs2 xs3 = k0_pay11 x1 xs0 := by
  -- the output's one piece covers it; its payload is the accumulator read back after its update store,
  -- that is, the update itself
  unfold out0_C_2
  rw [View.read_writes_eq_canon _ _ _ (cover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S1x4096) _ hz]
  -- a whole-block load of a buffer holding `x` reads `x`
  simp only [View.readAt_eq_ld, harg3.read_unread, harg8.read_unread,
    View.ld_unit_zero (S := S400x4096) hz, View.ld_unit_zero (S := S1x4096) hz]

/-- The last row block of a column block: output 3 receives accumulator 1's final contents (the sum of the targets). -/
theorem oC3 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    out0_C_3 c i arg2 harg2 arg3 harg3 arg4 harg4 arg5 harg5 arg6 harg6 arg7 harg7 arg8 harg8 arg9 harg9 arg10 harg10 arg11 harg11 hc0 hc1 x0 x1 xs0 xs1 xs2 xs3 = k0_pay12 x1 xs1 := by
  -- the output's one piece covers it; its payload is the accumulator read back after its update store,
  -- that is, the update itself
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S1x4096) _ hz]
  -- a whole-block load of a buffer holding `x` reads `x`
  simp only [View.readAt_eq_ld, harg3.read_unread, harg9.read_unread,
    View.ld_unit_zero (S := S400x4096) hz, View.ld_unit_zero (S := S1x4096) hz]

/-- The last row block of a column block: output 4 receives accumulator 2's final contents (the sum of the squared targets). -/
theorem oC4 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    out0_C_4 c i arg2 harg2 arg3 harg3 arg4 harg4 arg5 harg5 arg6 harg6 arg7 harg7 arg8 harg8 arg9 harg9 arg10 harg10 arg11 harg11 hc0 hc1 x0 x1 xs0 xs1 xs2 xs3 = k0_pay1 xs2 (k0_pay13 x1) := by
  -- the output's one piece covers it; its payload is the accumulator read back after its update store,
  -- that is, the update itself
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S1x4096) _ hz]
  -- a whole-block load of a buffer holding `x` reads `x`
  simp only [View.readAt_eq_ld, harg3.read_unread, harg10.read_unread,
    View.ld_unit_zero (S := S400x4096) hz, View.ld_unit_zero (S := S1x4096) hz]

/-- The last row block of a column block: output 5 receives accumulator 3's final contents (the sum of the squared residuals). -/
theorem oC5 (c : Dev nD) (i : grid0.Coords) (arg2 : Memref sig .tc .vmem S400x4096 .f32) (harg2 : arg2.IsWhole) (arg3 : Memref sig .tc .vmem S400x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (hc0 : ¬cond0_0 i) (hc1 : cond0_1 i)
    (x0 : Vec F S400x4096 .f32) (x1 : Vec F S400x4096 .f32) (xs0 : Vec F S1x4096 .f32) (xs1 : Vec F S1x4096 .f32) (xs2 : Vec F S1x4096 .f32) (xs3 : Vec F S1x4096 .f32) :
    out0_C_5 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay10 x1 x0) xs3 := by
  -- the output's one piece covers it; its payload is the accumulator read back after its update store,
  -- that is, the update itself
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz, View.readCov_unit_zero (S := S1x4096) _ hz]
  -- a whole-block load of a buffer holding `x` reads `x`
  simp only [View.readAt_eq_ld, harg2.read_unread, harg3.read_unread, harg11.read_unread,
    View.ld_unit_zero (S := S400x4096) hz, View.ld_unit_zero (S := S1x4096) hz]

end Cert.KernelIdeal.NSE

end
-- ==== Proof.KPayload.lean ====
/-
  The kernel body's arithmetic read at one column of the accumulator row, over the extended reals.

  Over the extended reals an element never differs from itself, so the body's observation mask is true everywhere:
  the masked target is the target, the masked output is the output, and the mask widened to an integer and converted is 1.
  A [400, 4096] block reduced along its rows is, at column q, the sum over the 400 rows. Hence, at column q of the
  [1, 4096] accumulator row, each updated accumulator is its previous entry plus a sum over the block's 400 rows:
  of 1 (the count), of the target, of the target squared, of the squared residual (target − output).
  `x0` is the block of the model output, `x1` the block of the target, `s` the accumulator's previous contents.
-/
import proofs.«123647_j7301444403966_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx

namespace Cert.KernelIdeal.NSE

open Cert.KernelIdeal Cert.KernelIdeal.Gen

/-- Over the extended reals an element never differs from itself, so the observation mask's bit, the comparison's bit
    flipped, is 1 at every position. -/
theorem mask_one (x1 : Vec Ideal S400x4096 .f32) (r : Fin 400) (q : Fin 4096) :
    k0_pay8 (F := Ideal) x1 (ix2 r q) = 1#1 := by
  unfold k0_pay8 k0_pay7
  rw [shapeCast_self]
  show IntOp.xori (Ideal.cmp .one (x1 (ix2 r q)) (x1 (ix2 r q))) 1#1 = 1#1
  simp [Ideal.cmp, IntOp.xori]

/-- The masked target is the target. -/
theorem pay9_apply (x1 : Vec Ideal S400x4096 .f32) (r : Fin 400) (q : Fin 4096) :
    k0_pay9 (F := Ideal) x1 (ix2 r q) = x1 (ix2 r q) := by
  unfold k0_pay9
  show Scalar.select (k0_pay8 (F := Ideal) x1 (ix2 r q)) (k0_pay7 x1 (ix2 r q)) _ = _
  rw [mask_one, select_one]
  unfold k0_pay7
  rw [shapeCast_self]

/-- The residual block is target − output: both selects take their first operand. -/
theorem pay10_apply (x0 x1 : Vec Ideal S400x4096 .f32) (r : Fin 400) (q : Fin 4096) :
    k0_pay10 (F := Ideal) x1 x0 (ix2 r q) = x1 (ix2 r q) - x0 (ix2 r q) := by
  unfold k0_pay10
  show k0_pay9 (F := Ideal) x1 (ix2 r q)
      - Scalar.select (k0_pay8 (F := Ideal) x1 (ix2 r q)) (shapeCast S400x4096 x0 shapeCasts_S400x4096_S400x4096 (ix2 r q)) _ = _
  rw [pay9_apply, mask_one, select_one, shapeCast_self]

/-- The mask widened to 32 bits and converted is 1. -/
theorem cnt_apply (x1 : Vec Ideal S400x4096 .f32) (r : Fin 400) (q : Fin 4096) :
    (sitofp .f32 (extui 32 (k0_pay8 (F := Ideal) x1) natLt_1_32) : FVec Ideal S400x4096 .f32) (ix2 r q) = 1 := by
  show (((((k0_pay8 (F := Ideal) x1 (ix2 r q)).setWidth 32).toInt : ℝ)) : EReal) = 1
  rw [mask_one]
  norm_num

/-- The column index with row r put back on the reduced axis is (r, q). -/
theorem lift_row (h : S400x4096.Reduces [0] S4096) (q : Fin 4096) (r : Fin 400) :
    h.lift (ix1 q) r = ix2 r q := by
  funext a
  match a with
  | ⟨0, _⟩ => exact Fin.ext rfl
  | ⟨1, _⟩ => exact Fin.ext rfl

/-- A block reduced along its rows and viewed as a one-row block is, at column q, the sum over the 400 rows. -/
theorem colsum (v : FVec Ideal S400x4096 .f32) (q : Fin 4096) :
    shapeCast S1x4096 (multiReduction .add [0] S4096 v 0x00000000#32 reduces_S400x4096_S4096 (.inl rfl) rfl)
        shapeCasts_S4096_S1x4096 (ix2 (0 : Fin 1) q)
      = ∑ r : Fin 400, v (ix2 r q) := by
  rw [shapeCast_a_1a_apply]
  refine (Ideal.multiReduction_add_single (φ := .f32) v _ reduces_S400x4096_S4096 (.inl rfl) rfl (ix1 q)).trans ?_
  show ∑ r : Fin 400, v (reduces_S400x4096_S4096.lift (ix1 q) r) = _
  exact Finset.sum_congr rfl fun r _ => congrArg v (lift_row _ q r)

/-- The count accumulator: its entry plus 1 per row of the block. -/
theorem pay_cnt (x1 : Vec Ideal S400x4096 .f32) (s : Vec Ideal S1x4096 .f32) (q : Fin 4096) :
    k0_pay11 (F := Ideal) x1 s (ix2 (0 : Fin 1) q) = s (ix2 (0 : Fin 1) q) + ∑ _r : Fin 400, (1 : EReal) := by
  unfold k0_pay11
  rw [shapeCast_self]
  show s (ix2 (0 : Fin 1) q) + shapeCast S1x4096 _ shapeCasts_S4096_S1x4096 (ix2 (0 : Fin 1) q) = _
  rw [colsum]
  exact congrArg (s (ix2 (0 : Fin 1) q) + ·) (Finset.sum_congr rfl fun r _ => cnt_apply x1 r q)

/-- The target-sum accumulator: its entry plus the column's sum of the target block. -/
theorem pay_sumt (x1 : Vec Ideal S400x4096 .f32) (s : Vec Ideal S1x4096 .f32) (q : Fin 4096) :
    k0_pay12 (F := Ideal) x1 s (ix2 (0 : Fin 1) q) = s (ix2 (0 : Fin 1) q) + ∑ r : Fin 400, x1 (ix2 r q) := by
  unfold k0_pay12
  rw [shapeCast_self]
  show s (ix2 (0 : Fin 1) q) + shapeCast S1x4096 _ shapeCasts_S4096_S1x4096 (ix2 (0 : Fin 1) q) = _
  rw [colsum]
  exact congrArg (s (ix2 (0 : Fin 1) q) + ·) (Finset.sum_congr rfl fun r _ => pay9_apply x1 r q)

/-- The squared-target accumulator: its entry plus the column's sum of the squared target block. -/
theorem pay_sumt2 (x1 : Vec Ideal S400x4096 .f32) (s : Vec Ideal S1x4096 .f32) (q : Fin 4096) :
    k0_pay1 (F := Ideal) s (k0_pay13 x1) (ix2 (0 : Fin 1) q)
      = s (ix2 (0 : Fin 1) q) + ∑ r : Fin 400, x1 (ix2 r q) * x1 (ix2 r q) := by
  unfold k0_pay1 k0_pay13
  rw [shapeCast_self]
  show s (ix2 (0 : Fin 1) q) + shapeCast S1x4096 _ shapeCasts_S4096_S1x4096 (ix2 (0 : Fin 1) q) = _
  rw [colsum]
  refine congrArg (s (ix2 (0 : Fin 1) q) + ·) (Finset.sum_congr rfl fun r _ => ?_)
  show k0_pay9 (F := Ideal) x1 (ix2 r q) * k0_pay9 (F := Ideal) x1 (ix2 r q) = _
  rw [pay9_apply]

/-- The residual accumulator: its entry plus the column's sum of the squared differences target − output. -/
theorem pay_ssres (x0 x1 : Vec Ideal S400x4096 .f32) (s : Vec Ideal S1x4096 .f32) (q : Fin 4096) :
    k0_pay2 (F := Ideal) (k0_pay10 x1 x0) s (ix2 (0 : Fin 1) q)
      = s (ix2 (0 : Fin 1) q) + ∑ r : Fin 400, (x1 (ix2 r q) - x0 (ix2 r q)) * (x1 (ix2 r q) - x0 (ix2 r q)) := by
  unfold k0_pay2
  rw [shapeCast_self]
  show s (ix2 (0 : Fin 1) q) + shapeCast S1x4096 _ shapeCasts_S4096_S1x4096 (ix2 (0 : Fin 1) q) = _
  rw [colsum]
  refine congrArg (s (ix2 (0 : Fin 1) q) + ·) (Finset.sum_congr rfl fun r _ => ?_)
  show k0_pay10 (F := Ideal) x1 x0 (ix2 r q) * k0_pay10 (F := Ideal) x1 x0 (ix2 r q) = _
  rw [pay10_apply]

/-- The four reset payloads are the zero row. -/
theorem pay_zero3 (q : Fin 4096) : k0_pay3 (F := Ideal) (ix2 (0 : Fin 1) q) = 0 := by
  unfold k0_pay3
  rw [shapeCast_self]
  exact Ideal.ofBits_zero_f32
theorem pay_zero4 (q : Fin 4096) : k0_pay4 (F := Ideal) (ix2 (0 : Fin 1) q) = 0 := by
  unfold k0_pay4
  rw [shapeCast_self]
  exact Ideal.ofBits_zero_f32
theorem pay_zero5 (q : Fin 4096) : k0_pay5 (F := Ideal) (ix2 (0 : Fin 1) q) = 0 := by
  unfold k0_pay5
  rw [shapeCast_self]
  exact Ideal.ofBits_zero_f32
theorem pay_zero6 (q : Fin 4096) : k0_pay6 (F := Ideal) (ix2 (0 : Fin 1) q) = 0 := by
  unfold k0_pay6
  rw [shapeCast_self]
  exact Ideal.ofBits_zero_f32

end Cert.KernelIdeal.NSE

end
-- ==== Proof.KAccum.lean ====
/-
  What the four accumulators hold after each grid point, and what the four outputs receive at a column block's last point.

  The grid has 8 column blocks of 4096 columns, each visited over 5 consecutive row blocks of 400 rows: point n works on
  column block n / 5 and row block n % 5, reading rows 400 (n % 5) … 400 (n % 5) + 399 and columns 4096 (n / 5) … + 4095 of
  the two [2000, 32768] inputs. By induction on the point, after point n accumulator j holds, at column q of its row, the
  sum over the first 400 (n % 5 + 1) rows of its summand at column 4096 (n / 5) + q: the first row block starts from the
  zero row, every later one adds its 400 rows to what the point before left. At the last row block the sum runs over all
  2000 rows and is what the outputs receive.
  The summands: 1 (the count), the target, the target squared, the squared residual target − output.
-/
import proofs.«123647_j7301444403966_1_alg».proof.Proof.Gen.KernelIdeal.Frame
import proofs.«123647_j7301444403966_1_alg».proof.Proof.KPieces
import proofs.«123647_j7301444403966_1_alg».proof.Proof.KPayload
import Idealize.ShloMosaic.Lib.Pipeline.Value
import Idealize.ShloMosaic.Lib.ValueIdx
import Mathlib.Algebra.BigOperators.Intervals

noncomputable section

open scoped BigOperators
open Idealize.ShloMosaic Idealize.ShloMosaic.TcCoe Idealize.SL.Sem Idealize.ShloMosaic.ValueIdx

namespace Cert.KernelIdeal.NSE

open Cert.KernelIdeal Cert.KernelIdeal.Gen

variable (m : (ℓ : Loc nD τ sig) → Buf (Elt Ideal) ℓ)

/-- The model output and the target as the region finds them: [2000, 32768] arrays. -/
abbrev Oarr (c : Dev nD) : Vec Ideal S2000x32768 .f32 := V m c main_v0
abbrev Tarr (c : Dev nD) : Vec Ideal S2000x32768 .f32 := V m c main_v1

/-- The same two arrays at natural-number coordinates, zero outside the array. -/
def On (c : Dev nD) (r j : ℕ) : EReal := if h : r < 2000 ∧ j < 32768 then Oarr m c (ix2 ⟨r, h.1⟩ ⟨j, h.2⟩) else 0
def Tn (c : Dev nD) (r j : ℕ) : EReal := if h : r < 2000 ∧ j < 32768 then Tarr m c (ix2 ⟨r, h.1⟩ ⟨j, h.2⟩) else 0

/-- The four summands at row r, column j: for the count, the target sum, the squared-target sum, the residual sum. -/
def f0 (_c : Dev nD) (_r _j : ℕ) : EReal := 1
def f1 (c : Dev nD) (r j : ℕ) : EReal := Tn m c r j
def f2 (c : Dev nD) (r j : ℕ) : EReal := Tn m c r j * Tn m c r j
def f3 (c : Dev nD) (r j : ℕ) : EReal := (Tn m c r j - On m c r j) * (Tn m c r j - On m c r j)

/-- The input blocks at a point, at their literal type. -/
abbrev oblk (c : Dev nD) (t : Fin cfg0.N) : Vec Ideal S400x4096 .f32 := iblk m c 0 t
abbrev tblk (c : Dev nD) (t : Fin cfg0.N) : Vec Ideal S400x4096 .f32 := iblk m c 1 t

theorem hN : cfg0.N = 40 := N_0

/-- The printed index maps over the grid: both inputs' block at point t is (row block t % 5, column block t / 5); every
    output's block is (0, column block t / 5). -/
theorem idx_in : ∀ t : Fin cfg0.N, win0_0.index t (0 : Fin 2) = t.val % 5 ∧ win0_0.index t (1 : Fin 2) = t.val / 5
    ∧ win0_1.index t (0 : Fin 2) = t.val % 5 ∧ win0_1.index t (1 : Fin 2) = t.val / 5 :=
  (by decide +kernel : ∀ t : Fin grid0.N, _)

/-- The output block at point t, entry (r, q): the output array at row 400 (t % 5) + r, column 4096 (t / 5) + q. -/
theorem oblk_apply (c : Dev nD) (t : Fin cfg0.N) (r : Fin 400) (q : Fin 4096) :
    oblk m c t (ix2 r q) = On m c (t.val % 5 * 400 + r.val) (t.val / 5 * 4096 + q.val) := by
  have ht : t.val < 40 := lt_of_lt_of_eq t.isLt hN
  obtain ⟨e0, e1, -, -⟩ := idx_in t
  have hb : t.val % 5 * 400 + r.val < 2000 ∧ t.val / 5 * 4096 + q.val < 32768 := by
    have := r.isLt; have := q.isLt; omega
  unfold On; rw [dif_pos hb]
  show iblk m c 0 t (ix2 r q) = _
  unfold iblk
  rw [View.read_apply]
  show V m c main_v0 _ = V m c main_v0 _
  congr 1
  funext a; apply Fin.ext
  match a with
  | ⟨0, _⟩ => show win0_0.index t (0 : Fin 2) * 400 + 1 * r.val = t.val % 5 * 400 + r.val; rw [e0]; omega
  | ⟨1, _⟩ => show win0_0.index t (1 : Fin 2) * 4096 + 1 * q.val = t.val / 5 * 4096 + q.val; rw [e1]; omega

/-- The target block at point t, entry (r, q): the target array at row 400 (t % 5) + r, column 4096 (t / 5) + q. -/
theorem tblk_apply (c : Dev nD) (t : Fin cfg0.N) (r : Fin 400) (q : Fin 4096) :
    tblk m c t (ix2 r q) = Tn m c (t.val % 5 * 400 + r.val) (t.val / 5 * 4096 + q.val) := by
  have ht : t.val < 40 := lt_of_lt_of_eq t.isLt hN
  obtain ⟨-, -, e0, e1⟩ := idx_in t
  have hb : t.val % 5 * 400 + r.val < 2000 ∧ t.val / 5 * 4096 + q.val < 32768 := by
    have := r.isLt; have := q.isLt; omega
  unfold Tn; rw [dif_pos hb]
  show iblk m c 1 t (ix2 r q) = _
  unfold iblk
  rw [View.read_apply]
  show V m c main_v1 _ = V m c main_v1 _
  congr 1
  funext a; apply Fin.ext
  match a with
  | ⟨0, _⟩ => show win0_1.index t (0 : Fin 2) * 400 + 1 * r.val = t.val % 5 * 400 + r.val; rw [e0]; omega
  | ⟨1, _⟩ => show win0_1.index t (1 : Fin 2) * 4096 + 1 * q.val = t.val / 5 * 4096 + q.val; rw [e1]; omega

/-- A sum over the 400 rows of a block is the sum over 400 consecutive naturals. -/
theorem sum_rows (g : ℕ → EReal) : ∑ r : Fin 400, g r.val = ∑ r ∈ Finset.range 400, g r :=
  (Finset.sum_range g).symm

/-- The block's 400 rows appended to the first 400 b rows are the first 400 (b + 1) rows. -/
theorem sum_append (g : ℕ → EReal) (b : ℕ) :
    ∑ r ∈ Finset.range (b * 400), g r + ∑ r : Fin 400, g (b * 400 + r.val) = ∑ r ∈ Finset.range ((b + 1) * 400), g r := by
  rw [sum_rows (fun r => g (b * 400 + r)), show (b + 1) * 400 = b * 400 + 400 by ring, Finset.sum_range_add]

/-! ### One block's column sums, in terms of the summands -/

theorem blk0 (c : Dev nD) (t : Fin cfg0.N) (q : Fin 4096) :
    ∑ _r : Fin 400, (1 : EReal) = ∑ r : Fin 400, f0 c (t.val % 5 * 400 + r.val) (t.val / 5 * 4096 + q.val) := rfl

theorem blk1 (c : Dev nD) (t : Fin cfg0.N) (q : Fin 4096) :
    ∑ r : Fin 400, tblk m c t (ix2 r q) = ∑ r : Fin 400, f1 m c (t.val % 5 * 400 + r.val) (t.val / 5 * 4096 + q.val) :=
  Finset.sum_congr rfl fun r _ => tblk_apply m c t r q

theorem blk2 (c : Dev nD) (t : Fin cfg0.N) (q : Fin 4096) :
    ∑ r : Fin 400, tblk m c t (ix2 r q) * tblk m c t (ix2 r q)
      = ∑ r : Fin 400, f2 m c (t.val % 5 * 400 + r.val) (t.val / 5 * 4096 + q.val) :=
  Finset.sum_congr rfl fun r _ => by rw [tblk_apply]; rfl

theorem blk3 (c : Dev nD) (t : Fin cfg0.N) (q : Fin 4096) :
    ∑ r : Fin 400, (tblk m c t (ix2 r q) - oblk m c t (ix2 r q)) * (tblk m c t (ix2 r q) - oblk m c t (ix2 r q))
      = ∑ r : Fin 400, f3 m c (t.val % 5 * 400 + r.val) (t.val / 5 * 4096 + q.val) :=
  Finset.sum_congr rfl fun r _ => by rw [tblk_apply, oblk_apply]; rfl

/-! ### One point's effect on the accumulators -/

/-- At the first row block of a column block every accumulator is zero plus this block's column sum. -/
theorem step_first (c : Dev nD) (t : Fin cfg0.N) (h0 : t.val % 5 = 0) (q : Fin 4096) :
    (outsAt0 m c t.val t.isLt).2.2.2.2.1 (ix2 (0 : Fin 1) q)
        = 0 + ∑ r : Fin 400, f0 c (t.val % 5 * 400 + r.val) (t.val / 5 * 4096 + q.val)
    ∧ (outsAt0 m c t.val t.isLt).2.2.2.2.2.1 (ix2 (0 : Fin 1) q)
        = 0 + ∑ r : Fin 400, f1 m c (t.val % 5 * 400 + r.val) (t.val / 5 * 4096 + q.val)
    ∧ (outsAt0 m c t.val t.isLt).2.2.2.2.2.2.1 (ix2 (0 : Fin 1) q)
        = 0 + ∑ r : Fin 400, f2 m c (t.val % 5 * 400 + r.val) (t.val / 5 * 4096 + q.val)
    ∧ (outsAt0 m c t.val t.isLt).2.2.2.2.2.2.2 (ix2 (0 : Fin 1) q)
        = 0 + ∑ r : Fin 400, f3 m c (t.val % 5 * 400 + r.val) (t.val / 5 * 4096 + q.val) := by
  have h1 : ¬t.val % 5 = 4 := by omega
  rw [outsAt0_A m c t h0 h1]
  dsimp only
  refine ⟨?_, ?_, ?_, ?_⟩
  · rw [sA0]
    refine (pay_cnt (tblk m c t) (k0_pay3 (F := Ideal)) q).trans ?_
    rw [pay_zero3, blk0 c t q]
  · rw [sA1]
    refine (pay_sumt (tblk m c t) (k0_pay4 (F := Ideal)) q).trans ?_
    rw [pay_zero4, blk1 m c t q]
  · rw [sA2]
    refine (pay_sumt2 (tblk m c t) (k0_pay5 (F := Ideal)) q).trans ?_
    rw [pay_zero5, blk2 m c t q]
  · rw [sA3]
    refine (pay_ssres (oblk m c t) (tblk m c t) (k0_pay6 (F := Ideal)) q).trans ?_
    rw [pay_zero6, blk3 m c t q]

/-- At a later row block every accumulator is what the point before left plus this block's column sum. -/
theorem step_later (c : Dev nD) (t : Fin cfg0.N) (h0 : ¬t.val % 5 = 0) (q : Fin 4096) :
    (outsAt0 m c t.val t.isLt).2.2.2.2.1 (ix2 (0 : Fin 1) q)
        = (outsAt0 m c (t.val - 1) (Nat.lt_of_le_of_lt (Nat.sub_le _ _) t.isLt)).2.2.2.2.1 (ix2 (0 : Fin 1) q)
          + ∑ r : Fin 400, f0 c (t.val % 5 * 400 + r.val) (t.val / 5 * 4096 + q.val)
    ∧ (outsAt0 m c t.val t.isLt).2.2.2.2.2.1 (ix2 (0 : Fin 1) q)
        = (outsAt0 m c (t.val - 1) (Nat.lt_of_le_of_lt (Nat.sub_le _ _) t.isLt)).2.2.2.2.2.1 (ix2 (0 : Fin 1) q)
          + ∑ r : Fin 400, f1 m c (t.val % 5 * 400 + r.val) (t.val / 5 * 4096 + q.val)
    ∧ (outsAt0 m c t.val t.isLt).2.2.2.2.2.2.1 (ix2 (0 : Fin 1) q)
        = (outsAt0 m c (t.val - 1) (Nat.lt_of_le_of_lt (Nat.sub_le _ _) t.isLt)).2.2.2.2.2.2.1 (ix2 (0 : Fin 1) q)
          + ∑ r : Fin 400, f2 m c (t.val % 5 * 400 + r.val) (t.val / 5 * 4096 + q.val)
    ∧ (outsAt0 m c t.val t.isLt).2.2.2.2.2.2.2 (ix2 (0 : Fin 1) q)
        = (outsAt0 m c (t.val - 1) (Nat.lt_of_le_of_lt (Nat.sub_le _ _) t.isLt)).2.2.2.2.2.2.2 (ix2 (0 : Fin 1) q)
          + ∑ r : Fin 400, f3 m c (t.val % 5 * 400 + r.val) (t.val / 5 * 4096 + q.val) := by
  by_cases h1 : t.val % 5 = 4
  · rw [outsAt0_C m c t h0 h1]
    dsimp only
    refine ⟨?_, ?_, ?_, ?_⟩
    · rw [sC0]
      exact (pay_cnt (tblk m c t) _ q).trans (congrArg _ (blk0 c t q))
    · rw [sC1]
      exact (pay_sumt (tblk m c t) _ q).trans (congrArg _ (blk1 m c t q))
    · rw [sC2]
      exact (pay_sumt2 (tblk m c t) _ q).trans (congrArg _ (blk2 m c t q))
    · rw [sC3]
      exact (pay_ssres (oblk m c t) (tblk m c t) _ q).trans (congrArg _ (blk3 m c t q))
  · rw [outsAt0_B m c t h0 h1]
    dsimp only
    refine ⟨?_, ?_, ?_, ?_⟩
    · rw [sB0]
      exact (pay_cnt (tblk m c t) _ q).trans (congrArg _ (blk0 c t q))
    · rw [sB1]
      exact (pay_sumt (tblk m c t) _ q).trans (congrArg _ (blk1 m c t q))
    · rw [sB2]
      exact (pay_sumt2 (tblk m c t) _ q).trans (congrArg _ (blk2 m c t q))
    · rw [sB3]
      exact (pay_ssres (oblk m c t) (tblk m c t) _ q).trans (congrArg _ (blk3 m c t q))

/-- At the last row block of a column block each output receives its accumulator's new contents. -/
theorem out_eq_acc (c : Dev nD) (t : Fin cfg0.N) (h1 : t.val % 5 = 4) :
    (outsAt0 m c t.val t.isLt).1 = (outsAt0 m c t.val t.isLt).2.2.2.2.1
    ∧ (outsAt0 m c t.val t.isLt).2.1 = (outsAt0 m c t.val t.isLt).2.2.2.2.2.1
    ∧ (outsAt0 m c t.val t.isLt).2.2.1 = (outsAt0 m c t.val t.isLt).2.2.2.2.2.2.1
    ∧ (outsAt0 m c t.val t.isLt).2.2.2.1 = (outsAt0 m c t.val t.isLt).2.2.2.2.2.2.2 := by
  have h0 : ¬t.val % 5 = 0 := by omega
  rw [outsAt0_C m c t h0 h1]
  dsimp only
  rw [oC2, oC3, oC4, oC5, sC0, sC1, sC2, sC3]
  exact ⟨rfl, rfl, rfl, rfl⟩

/-! ### The induction over the points -/

theorem first_block (g : ℕ → EReal) (n : ℕ) (h0 : n % 5 = 0) :
    (0 : EReal) + ∑ r : Fin 400, g (n % 5 * 400 + r.val) = ∑ r ∈ Finset.range ((n % 5 + 1) * 400), g r := by
  rw [← sum_append g (n % 5), h0]
  simp

theorem later_block (g : ℕ → EReal) (n : ℕ) (h0 : ¬(n + 1) % 5 = 0) :
    ∑ r ∈ Finset.range ((n % 5 + 1) * 400), g r + ∑ r : Fin 400, g ((n + 1) % 5 * 400 + r.val)
      = ∑ r ∈ Finset.range (((n + 1) % 5 + 1) * 400), g r := by
  have e : (n + 1) % 5 = n % 5 + 1 := by omega
  rw [e, sum_append]

/-- After point n, accumulator j holds at column q the sum of its summand over the first 400 (n % 5 + 1) rows of column
    4096 (n / 5) + q. -/
theorem acc_inv (c : Dev nD) : ∀ (n : ℕ) (h : n < cfg0.N) (q : Fin 4096),
    (outsAt0 m c n h).2.2.2.2.1 (ix2 (0 : Fin 1) q)
        = ∑ r ∈ Finset.range ((n % 5 + 1) * 400), f0 c r (n / 5 * 4096 + q.val)
    ∧ (outsAt0 m c n h).2.2.2.2.2.1 (ix2 (0 : Fin 1) q)
        = ∑ r ∈ Finset.range ((n % 5 + 1) * 400), f1 m c r (n / 5 * 4096 + q.val)
    ∧ (outsAt0 m c n h).2.2.2.2.2.2.1 (ix2 (0 : Fin 1) q)
        = ∑ r ∈ Finset.range ((n % 5 + 1) * 400), f2 m c r (n / 5 * 4096 + q.val)
    ∧ (outsAt0 m c n h).2.2.2.2.2.2.2 (ix2 (0 : Fin 1) q)
        = ∑ r ∈ Finset.range ((n % 5 + 1) * 400), f3 m c r (n / 5 * 4096 + q.val)
  | 0, h, q => by
    obtain ⟨a0, a1, a2, a3⟩ := step_first m c ⟨0, h⟩ rfl q
    exact ⟨a0.trans (first_block (fun r => f0 c r (0 / 5 * 4096 + q.val)) 0 rfl),
      a1.trans (first_block (fun r => f1 m c r (0 / 5 * 4096 + q.val)) 0 rfl),
      a2.trans (first_block (fun r => f2 m c r (0 / 5 * 4096 + q.val)) 0 rfl),
      a3.trans (first_block (fun r => f3 m c r (0 / 5 * 4096 + q.val)) 0 rfl)⟩
  | n + 1, h, q => by
    by_cases h0 : (n + 1) % 5 = 0
    · obtain ⟨a0, a1, a2, a3⟩ := step_first m c ⟨n + 1, h⟩ h0 q
      exact ⟨a0.trans (first_block (fun r => f0 c r ((n + 1) / 5 * 4096 + q.val)) (n + 1) h0),
        a1.trans (first_block (fun r => f1 m c r ((n + 1) / 5 * 4096 + q.val)) (n + 1) h0),
        a2.trans (first_block (fun r => f2 m c r ((n + 1) / 5 * 4096 + q.val)) (n + 1) h0),
        a3.trans (first_block (fun r => f3 m c r ((n + 1) / 5 * 4096 + q.val)) (n + 1) h0)⟩
    · obtain ⟨a0, a1, a2, a3⟩ := step_later m c ⟨n + 1, h⟩ h0 q
      obtain ⟨i0, i1, i2, i3⟩ := acc_inv c n (Nat.lt_of_succ_lt h) q
      have ed : (n + 1) / 5 = n / 5 := by omega
      simp only [Nat.add_sub_cancel] at a0 a1 a2 a3
      rw [i0] at a0; rw [i1] at a1; rw [i2] at a2; rw [i3] at a3
      rw [ed] at a0 a1 a2 a3 ⊢
      exact ⟨a0.trans (later_block (fun r => f0 c r (n / 5 * 4096 + q.val)) n h0),
        a1.trans (later_block (fun r => f1 m c r (n / 5 * 4096 + q.val)) n h0),
        a2.trans (later_block (fun r => f2 m c r (n / 5 * 4096 + q.val)) n h0),
        a3.trans (later_block (fun r => f3 m c r (n / 5 * 4096 + q.val)) n h0)⟩

/-- What output w receives at the last row block of column block t / 5: at column q, the sum of its summand over all
    2000 rows of column 4096 (t / 5) + q. -/
theorem out_last (c : Dev nD) (t : Fin cfg0.N) (h1 : t.val % 5 = 4) (q : Fin 4096) :
    (outsAt0 m c t.val t.isLt).1 (ix2 (0 : Fin 1) q)
        = ∑ r ∈ Finset.range 2000, f0 c r (t.val / 5 * 4096 + q.val)
    ∧ (outsAt0 m c t.val t.isLt).2.1 (ix2 (0 : Fin 1) q)
        = ∑ r ∈ Finset.range 2000, f1 m c r (t.val / 5 * 4096 + q.val)
    ∧ (outsAt0 m c t.val t.isLt).2.2.1 (ix2 (0 : Fin 1) q)
        = ∑ r ∈ Finset.range 2000, f2 m c r (t.val / 5 * 4096 + q.val)
    ∧ (outsAt0 m c t.val t.isLt).2.2.2.1 (ix2 (0 : Fin 1) q)
        = ∑ r ∈ Finset.range 2000, f3 m c r (t.val / 5 * 4096 + q.val) := by
  obtain ⟨e0, e1, e2, e3⟩ := out_eq_acc m c t h1
  obtain ⟨i0, i1, i2, i3⟩ := acc_inv m c t.val t.isLt q
  rw [e0, e1, e2, e3, i0, i1, i2, i3, h1]
  exact ⟨rfl, rfl, rfl, rfl⟩

end Cert.KernelIdeal.NSE

end
-- ==== Proof.KArrays.lean ====
/-
  The four output rows after the run: at column j, the sum of the summand over all 2000 rows of column j.

  Output w is written back only at the last row block of a column block (points 5 b + 4), and then its block is columns
  4096 b … 4096 b + 4095 of its [1, 32768] row. The eight flushed blocks tile the row, and each holds, at column q, the
  full column sum at column 4096 b + q (the accumulators' contents after the fifth row block). So the whole row ends
  holding the column sums.
-/
import proofs.«123647_j7301444403966_1_alg».proof.Proof.Gen.KernelIdeal.Frame
import proofs.«123647_j7301444403966_1_alg».proof.Proof.KAccum
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.NSE

open Cert.KernelIdeal Cert.KernelIdeal.Gen

variable (m : (ℓ : Loc nD τ sig) → Buf (Elt Ideal) ℓ)

/-- The [1, 32768] row whose entry at column j is the sum over all 2000 rows of f at (row, j). -/
def rowOf (f : ℕ → ℕ → EReal) : Vec Ideal S1x32768 .f32 := fun i => ∑ r ∈ Finset.range 2000, f r (i 1).val

/-- Every output's block at point t is column block t / 5 … -/
theorem idx_out : ∀ t : Fin cfg0.N, win0_2.index t (1 : Fin 2) = t.val / 5 ∧ win0_3.index t (1 : Fin 2) = t.val / 5
    ∧ win0_4.index t (1 : Fin 2) = t.val / 5 ∧ win0_5.index t (1 : Fin 2) = t.val / 5 :=
  (by decide +kernel : ∀ t : Fin grid0.N, _)

/-- … of the one row. -/
theorem idx_out0 : ∀ t : Fin cfg0.N, win0_2.index t (0 : Fin 2) = 0 ∧ win0_3.index t (0 : Fin 2) = 0
    ∧ win0_4.index t (0 : Fin 2) = 0 ∧ win0_5.index t (0 : Fin 2) = 0 :=
  (by decide +kernel : ∀ t : Fin grid0.N, _)

/-- What a flushing point writes back into output 2: its block of the row of column sums. -/
theorem flushed2 (c : Dev nD) (t : Fin cfg0.N) (hf : (cfg0.win 2).flush t = true) :
    (dats m 0 c).flushed 2 t = ((cfg0.win 2).blk t).view.read (Elt Ideal) (rowOf (f0 c)) := by
  have h1 : t.val % 5 = 4 := (flush0_2 t).mp hf
  show (cfg0.win 2).cut (grid0.coords t) ((dats m 0 c).after 2 t) = _
  rw [after0_2]
  funext y
  have hy0 : (y 0).val = 0 := by have : (y 0).val < 1 := (y 0).isLt; omega
  have hq : (y 1).val < 4096 := (y 1).isLt
  have hyeq : y = ix2 (0 : Fin 1) (⟨(y 1).val, hq⟩ : Fin 4096) := by
    funext a; apply Fin.ext
    match a with
    | ⟨0, _⟩ => exact hy0
    | ⟨1, _⟩ => rfl
  have a := (out_last m c t h1 ⟨(y 1).val, hq⟩).1
  have he : ((((cfg0.win 2).blk t).view.emb y) 1).val = t.val / 5 * 4096 + (y 1).val := by
    show win0_2.index t (1 : Fin 2) * 4096 + 1 * (y 1).val = _
    rw [(idx_out t).1]; omega
  rw [View.read_apply]
  refine ((congrArg _ hyeq).trans a).trans ?_
  show _ = ∑ r ∈ Finset.range 2000, f0 c r ((((cfg0.win 2).blk t).view.emb y) 1).val
  rw [he]

/-- Every column of output 2's row lies in the block of the last point of its column block. -/
theorem cover2 (i : S1x32768.Idx) :
    ∃ t : Fin cfg0.N, (cfg0.win 2).flush t = true ∧ i ∈ ((cfg0.win 2).blk t).view.set := by
  have hi0 : (i 0).val < 1 := (i 0).isLt
  have hi1 : (i 1).val < 32768 := (i 1).isLt
  have hlt : (i 1).val / 4096 * 5 + 4 < cfg0.N := by rw [hN]; omega
  refine ⟨⟨(i 1).val / 4096 * 5 + 4, hlt⟩, (flush0_2 _).mpr (by show ((i 1).val / 4096 * 5 + 4) % 5 = 4; omega), ?_⟩
  have e := (idx_out ⟨(i 1).val / 4096 * 5 + 4, hlt⟩).1
  have e' : win0_2.index ⟨(i 1).val / 4096 * 5 + 4, hlt⟩ (1 : Fin 2) = (i 1).val / 4096 := by
    rw [e]; show ((i 1).val / 4096 * 5 + 4) / 5 = _; omega
  have e0 := (idx_out0 ⟨(i 1).val / 4096 * 5 + 4, hlt⟩).1
  show i ∈ ((View.whole main_v2_0).slice (win0_2.rect ⟨(i 1).val / 4096 * 5 + 4, hlt⟩)).set
  rw [View.set_slice_whole, Rect.mem_set_unit]
  intro a
  match a with
  | ⟨0, _⟩ =>
    show win0_2.index ⟨(i 1).val / 4096 * 5 + 4, hlt⟩ (0 : Fin 2) * 1 ≤ (i 0).val
      ∧ (i 0).val < win0_2.index ⟨(i 1).val / 4096 * 5 + 4, hlt⟩ (0 : Fin 2) * 1 + 1
    rw [e0]; omega
  | ⟨1, _⟩ =>
    show win0_2.index ⟨(i 1).val / 4096 * 5 + 4, hlt⟩ (1 : Fin 2) * 4096 ≤ (i 1).val
      ∧ (i 1).val < win0_2.index ⟨(i 1).val / 4096 * 5 + 4, hlt⟩ (1 : Fin 2) * 4096 + 4096
    rw [e']; omega

/-- Output 2's array after the run: the row of column sums. -/
theorem arr2 (c : Dev nD) : (dats m 0 c).arrAt 2 cfg0.N = rowOf (f0 c) :=
  (dats m 0 c).arrAt_eq_of_cover 2 (rowOf (f0 c)) (flushed2 m c) cover2

/-- What a flushing point writes back into output 3: its block of the row of column sums. -/
theorem flushed3 (c : Dev nD) (t : Fin cfg0.N) (hf : (cfg0.win 3).flush t = true) :
    (dats m 0 c).flushed 3 t = ((cfg0.win 3).blk t).view.read (Elt Ideal) (rowOf (f1 m c)) := by
  have h1 : t.val % 5 = 4 := (flush0_3 t).mp hf
  show (cfg0.win 3).cut (grid0.coords t) ((dats m 0 c).after 3 t) = _
  rw [after0_3]
  funext y
  have hy0 : (y 0).val = 0 := by have : (y 0).val < 1 := (y 0).isLt; omega
  have hq : (y 1).val < 4096 := (y 1).isLt
  have hyeq : y = ix2 (0 : Fin 1) (⟨(y 1).val, hq⟩ : Fin 4096) := by
    funext a; apply Fin.ext
    match a with
    | ⟨0, _⟩ => exact hy0
    | ⟨1, _⟩ => rfl
  have a := (out_last m c t h1 ⟨(y 1).val, hq⟩).2.1
  have he : ((((cfg0.win 3).blk t).view.emb y) 1).val = t.val / 5 * 4096 + (y 1).val := by
    show win0_3.index t (1 : Fin 2) * 4096 + 1 * (y 1).val = _
    rw [(idx_out t).2.1]; omega
  rw [View.read_apply]
  refine ((congrArg _ hyeq).trans a).trans ?_
  show _ = ∑ r ∈ Finset.range 2000, f1 m c r ((((cfg0.win 3).blk t).view.emb y) 1).val
  rw [he]

/-- Every column of output 3's row lies in the block of the last point of its column block. -/
theorem cover3 (i : S1x32768.Idx) :
    ∃ t : Fin cfg0.N, (cfg0.win 3).flush t = true ∧ i ∈ ((cfg0.win 3).blk t).view.set := by
  have hi0 : (i 0).val < 1 := (i 0).isLt
  have hi1 : (i 1).val < 32768 := (i 1).isLt
  have hlt : (i 1).val / 4096 * 5 + 4 < cfg0.N := by rw [hN]; omega
  refine ⟨⟨(i 1).val / 4096 * 5 + 4, hlt⟩, (flush0_3 _).mpr (by show ((i 1).val / 4096 * 5 + 4) % 5 = 4; omega), ?_⟩
  have e := (idx_out ⟨(i 1).val / 4096 * 5 + 4, hlt⟩).2.1
  have e' : win0_3.index ⟨(i 1).val / 4096 * 5 + 4, hlt⟩ (1 : Fin 2) = (i 1).val / 4096 := by
    rw [e]; show ((i 1).val / 4096 * 5 + 4) / 5 = _; omega
  have e0 := (idx_out0 ⟨(i 1).val / 4096 * 5 + 4, hlt⟩).2.1
  show i ∈ ((View.whole main_v2_1).slice (win0_3.rect ⟨(i 1).val / 4096 * 5 + 4, hlt⟩)).set
  rw [View.set_slice_whole, Rect.mem_set_unit]
  intro a
  match a with
  | ⟨0, _⟩ =>
    show win0_3.index ⟨(i 1).val / 4096 * 5 + 4, hlt⟩ (0 : Fin 2) * 1 ≤ (i 0).val
      ∧ (i 0).val < win0_3.index ⟨(i 1).val / 4096 * 5 + 4, hlt⟩ (0 : Fin 2) * 1 + 1
    rw [e0]; omega
  | ⟨1, _⟩ =>
    show win0_3.index ⟨(i 1).val / 4096 * 5 + 4, hlt⟩ (1 : Fin 2) * 4096 ≤ (i 1).val
      ∧ (i 1).val < win0_3.index ⟨(i 1).val / 4096 * 5 + 4, hlt⟩ (1 : Fin 2) * 4096 + 4096
    rw [e']; omega

/-- Output 3's array after the run: the row of column sums. -/
theorem arr3 (c : Dev nD) : (dats m 0 c).arrAt 3 cfg0.N = rowOf (f1 m c) :=
  (dats m 0 c).arrAt_eq_of_cover 3 (rowOf (f1 m c)) (flushed3 m c) cover3

/-- What a flushing point writes back into output 4: its block of the row of column sums. -/
theorem flushed4 (c : Dev nD) (t : Fin cfg0.N) (hf : (cfg0.win 4).flush t = true) :
    (dats m 0 c).flushed 4 t = ((cfg0.win 4).blk t).view.read (Elt Ideal) (rowOf (f2 m c)) := by
  have h1 : t.val % 5 = 4 := (flush0_4 t).mp hf
  show (cfg0.win 4).cut (grid0.coords t) ((dats m 0 c).after 4 t) = _
  rw [after0_4]
  funext y
  have hy0 : (y 0).val = 0 := by have : (y 0).val < 1 := (y 0).isLt; omega
  have hq : (y 1).val < 4096 := (y 1).isLt
  have hyeq : y = ix2 (0 : Fin 1) (⟨(y 1).val, hq⟩ : Fin 4096) := by
    funext a; apply Fin.ext
    match a with
    | ⟨0, _⟩ => exact hy0
    | ⟨1, _⟩ => rfl
  have a := (out_last m c t h1 ⟨(y 1).val, hq⟩).2.2.1
  have he : ((((cfg0.win 4).blk t).view.emb y) 1).val = t.val / 5 * 4096 + (y 1).val := by
    show win0_4.index t (1 : Fin 2) * 4096 + 1 * (y 1).val = _
    rw [(idx_out t).2.2.1]; omega
  rw [View.read_apply]
  refine ((congrArg _ hyeq).trans a).trans ?_
  show _ = ∑ r ∈ Finset.range 2000, f2 m c r ((((cfg0.win 4).blk t).view.emb y) 1).val
  rw [he]

/-- Every column of output 4's row lies in the block of the last point of its column block. -/
theorem cover4 (i : S1x32768.Idx) :
    ∃ t : Fin cfg0.N, (cfg0.win 4).flush t = true ∧ i ∈ ((cfg0.win 4).blk t).view.set := by
  have hi0 : (i 0).val < 1 := (i 0).isLt
  have hi1 : (i 1).val < 32768 := (i 1).isLt
  have hlt : (i 1).val / 4096 * 5 + 4 < cfg0.N := by rw [hN]; omega
  refine ⟨⟨(i 1).val / 4096 * 5 + 4, hlt⟩, (flush0_4 _).mpr (by show ((i 1).val / 4096 * 5 + 4) % 5 = 4; omega), ?_⟩
  have e := (idx_out ⟨(i 1).val / 4096 * 5 + 4, hlt⟩).2.2.1
  have e' : win0_4.index ⟨(i 1).val / 4096 * 5 + 4, hlt⟩ (1 : Fin 2) = (i 1).val / 4096 := by
    rw [e]; show ((i 1).val / 4096 * 5 + 4) / 5 = _; omega
  have e0 := (idx_out0 ⟨(i 1).val / 4096 * 5 + 4, hlt⟩).2.2.1
  show i ∈ ((View.whole main_v2_2).slice (win0_4.rect ⟨(i 1).val / 4096 * 5 + 4, hlt⟩)).set
  rw [View.set_slice_whole, Rect.mem_set_unit]
  intro a
  match a with
  | ⟨0, _⟩ =>
    show win0_4.index ⟨(i 1).val / 4096 * 5 + 4, hlt⟩ (0 : Fin 2) * 1 ≤ (i 0).val
      ∧ (i 0).val < win0_4.index ⟨(i 1).val / 4096 * 5 + 4, hlt⟩ (0 : Fin 2) * 1 + 1
    rw [e0]; omega
  | ⟨1, _⟩ =>
    show win0_4.index ⟨(i 1).val / 4096 * 5 + 4, hlt⟩ (1 : Fin 2) * 4096 ≤ (i 1).val
      ∧ (i 1).val < win0_4.index ⟨(i 1).val / 4096 * 5 + 4, hlt⟩ (1 : Fin 2) * 4096 + 4096
    rw [e']; omega

/-- Output 4's array after the run: the row of column sums. -/
theorem arr4 (c : Dev nD) : (dats m 0 c).arrAt 4 cfg0.N = rowOf (f2 m c) :=
  (dats m 0 c).arrAt_eq_of_cover 4 (rowOf (f2 m c)) (flushed4 m c) cover4

/-- What a flushing point writes back into output 5: its block of the row of column sums. -/
theorem flushed5 (c : Dev nD) (t : Fin cfg0.N) (hf : (cfg0.win 5).flush t = true) :
    (dats m 0 c).flushed 5 t = ((cfg0.win 5).blk t).view.read (Elt Ideal) (rowOf (f3 m c)) := by
  have h1 : t.val % 5 = 4 := (flush0_5 t).mp hf
  show (cfg0.win 5).cut (grid0.coords t) ((dats m 0 c).after 5 t) = _
  rw [after0_5]
  funext y
  have hy0 : (y 0).val = 0 := by have : (y 0).val < 1 := (y 0).isLt; omega
  have hq : (y 1).val < 4096 := (y 1).isLt
  have hyeq : y = ix2 (0 : Fin 1) (⟨(y 1).val, hq⟩ : Fin 4096) := by
    funext a; apply Fin.ext
    match a with
    | ⟨0, _⟩ => exact hy0
    | ⟨1, _⟩ => rfl
  have a := (out_last m c t h1 ⟨(y 1).val, hq⟩).2.2.2
  have he : ((((cfg0.win 5).blk t).view.emb y) 1).val = t.val / 5 * 4096 + (y 1).val := by
    show win0_5.index t (1 : Fin 2) * 4096 + 1 * (y 1).val = _
    rw [(idx_out t).2.2.2]; omega
  rw [View.read_apply]
  refine ((congrArg _ hyeq).trans a).trans ?_
  show _ = ∑ r ∈ Finset.range 2000, f3 m c r ((((cfg0.win 5).blk t).view.emb y) 1).val
  rw [he]

/-- Every column of output 5's row lies in the block of the last point of its column block. -/
theorem cover5 (i : S1x32768.Idx) :
    ∃ t : Fin cfg0.N, (cfg0.win 5).flush t = true ∧ i ∈ ((cfg0.win 5).blk t).view.set := by
  have hi0 : (i 0).val < 1 := (i 0).isLt
  have hi1 : (i 1).val < 32768 := (i 1).isLt
  have hlt : (i 1).val / 4096 * 5 + 4 < cfg0.N := by rw [hN]; omega
  refine ⟨⟨(i 1).val / 4096 * 5 + 4, hlt⟩, (flush0_5 _).mpr (by show ((i 1).val / 4096 * 5 + 4) % 5 = 4; omega), ?_⟩
  have e := (idx_out ⟨(i 1).val / 4096 * 5 + 4, hlt⟩).2.2.2
  have e' : win0_5.index ⟨(i 1).val / 4096 * 5 + 4, hlt⟩ (1 : Fin 2) = (i 1).val / 4096 := by
    rw [e]; show ((i 1).val / 4096 * 5 + 4) / 5 = _; omega
  have e0 := (idx_out0 ⟨(i 1).val / 4096 * 5 + 4, hlt⟩).2.2.2
  show i ∈ ((View.whole main_v2_3).slice (win0_5.rect ⟨(i 1).val / 4096 * 5 + 4, hlt⟩)).set
  rw [View.set_slice_whole, Rect.mem_set_unit]
  intro a
  match a with
  | ⟨0, _⟩ =>
    show win0_5.index ⟨(i 1).val / 4096 * 5 + 4, hlt⟩ (0 : Fin 2) * 1 ≤ (i 0).val
      ∧ (i 0).val < win0_5.index ⟨(i 1).val / 4096 * 5 + 4, hlt⟩ (0 : Fin 2) * 1 + 1
    rw [e0]; omega
  | ⟨1, _⟩ =>
    show win0_5.index ⟨(i 1).val / 4096 * 5 + 4, hlt⟩ (1 : Fin 2) * 4096 ≤ (i 1).val
      ∧ (i 1).val < win0_5.index ⟨(i 1).val / 4096 * 5 + 4, hlt⟩ (1 : Fin 2) * 4096 + 4096
    rw [e']; omega

/-- Output 5's array after the run: the row of column sums. -/
theorem arr5 (c : Dev nD) : (dats m 0 c).arrAt 5 cfg0.N = rowOf (f3 m c) :=
  (dats m 0 c).arrAt_eq_of_cover 5 (rowOf (f3 m c)) (flushed5 m c) cover5

end Cert.KernelIdeal.NSE

end
-- ==== Proof.KTail.lean ====
/-
  The host operations after the kernel region, read as one closed formula.

  The region leaves four [1, 32768] rows: per column the count, the sum of the targets, the sum of their squares and the
  residual sum of squares. The host recasts each row as [8192, 4] (entry (g, k) is position 4 g + k of the row), forms
  the total sum of squares Q − S² / max(n, 1), the validity bit (n > 0 and the total sum of squares ≠ 0), the score
  1 − ssres / sst where valid and 0 elsewhere, sums the scores over the gages, divides by the sum over the gages of the
  validity bit converted to 0.0 / 1.0, negates, and sums over the four channels: the loss of the four column statistics.
-/
import proofs.«123647_j7301444403966_1_alg».proof.Proof.Gen.KernelIdeal.Frame
import proofs.«123647_j7301444403966_1_alg».proof.Proof.NseSpec
import Idealize.ShloMosaic.Lib.Pipeline.Value
import Idealize.ShloMosaic.Lib.StableHlo.Run
import Idealize.ShloMosaic.Lib.ValueIdx
import Idealize.ShloMosaic.Lib.ValueIdxRank1
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.NSE

open Cert.KernelIdeal Cert.KernelIdeal.Gen Cert.NSE

variable (m : (ℓ : Loc nD τ sig) → Buf (Elt Ideal) ℓ)

namespace KTail

/-! ## The host stages as functions of the four rows -/

/-- A [1, 32768] row recast as [8192, 4]. -/
def recast (a : FVec Ideal S1x32768 .f32) : FVec Ideal S8192x4 .f32 :=
  fun i => shapeCast S8192x4 a shapeCasts_S1x32768_S8192x4 i

/-- Entry (g, k) of the recast row is the row's position 4 g + k: the two row-major positions agree. -/
theorem recast_apply (a : FVec Ideal S1x32768 .f32) (g : Fin 8192) (k : Fin 4) :
    recast a (ix2 g k) = a (ix2 (0 : Fin 1) (col g k)) := by
  unfold recast
  refine shapeCast_apply a _ _ _ ?_
  rw [Shape.rowMajor_val_two, Shape.rowMajor_val_two]
  show (0 : Nat) * 32768 + (g.val * 4 + k.val) = g.val * 4 + k.val
  omega

/-- The sum over the gages: at channel k, the initial value plus the sum over g of entry (g, k). -/
theorem sum_gages (x : FVec Ideal S8192x4 .f32) (init : FVec Ideal S_ .f32) (k : Fin 4) :
    Host.reduceAdd x init reducesTo_S8192x4_S4_d0 h_S_ (ix1 k)
      = init (Shape.Idx.first h_S_) + ∑ g : Fin 8192, x (ix2 g k) := by
  simp only [Host.reduceAdd, Ideal.hostReduceAdd_def]
  rw [Ideal.hostReduceAdd_single reducesTo_S8192x4_S4_d0 (by decide)]
  refine congrArg (_ + ·) (Finset.sum_congr rfl fun g _ => ?_)
  exact congrArg x (funext fun a => Fin.ext (by match a with | ⟨0, _⟩ => rfl | ⟨1, _⟩ => rfl))

/-- The sum over the four channels: the initial value plus the sum over k of entry k. -/
theorem sum_channels (x : FVec Ideal S4 .f32) (init : FVec Ideal S_ .f32) (i : S_.Idx) :
    Host.reduceAdd x init reducesTo_S4_S_d0 h_S_ i
      = init (Shape.Idx.first h_S_) + ∑ k : Fin 4, x (ix1 k) := by
  simp only [Host.reduceAdd, Ideal.hostReduceAdd_def]
  rw [Ideal.hostReduceAdd_total reducesTo_S4_S_d0 (fun b => b.elim0)]
  exact congrArg (_ + ·) (Equiv.sum_comp (idxEquiv1 (n := 4)).symm x).symm

section Stages
variable (a2 a3 a4 a5 : FVec Ideal S1x32768 .f32)

/-- The total sum of squares: Q − S² / max(n, 1), per column. -/
def sstV : FVec Ideal S8192x4 .f32 :=
  subf (recast a4)
    (Host.divf (mulf (recast a3) (recast a3))
      (maximumf (recast a2) (broadcastInDim S8192x4 ![] bcast_S_S8192x4 (constant S_ .f32 0x3F800000#32))))

/-- The validity bit: the count is positive and the total sum of squares is not zero. -/
def validV : IVec S8192x4 1 :=
  andi (cmpf .ogt (recast a2) (broadcastInDim S8192x4 ![] bcast_S_S8192x4 (constant (F := Ideal) S_ .f32 0x00000000#32)))
    (cmpf .une (sstV a2 a3 a4) (broadcastInDim S8192x4 ![] bcast_S_S8192x4 (constant (F := Ideal) S_ .f32 0x00000000#32)))

/-- The divisor of the score: the total sum of squares where valid, 1.0 elsewhere. -/
def safeV : FVec Ideal S8192x4 .f32 :=
  select (validV a2 a3 a4) (sstV a2 a3 a4)
    (broadcastInDim S8192x4 ![] bcast_S_S8192x4 (id (constant (F := Ideal) S_ .f32 0x3F800000#32)))

/-- The score: 1 − ssres / sst where valid, 0.0 elsewhere. -/
def nseV : FVec Ideal S8192x4 .f32 :=
  select (validV a2 a3 a4)
    (subf (broadcastInDim S8192x4 ![] bcast_S_S8192x4 (constant (F := Ideal) S_ .f32 0x3F800000#32))
      (Host.divf (recast a5) (safeV a2 a3 a4)))
    (broadcastInDim S8192x4 ![] bcast_S_S8192x4 (id (constant (F := Ideal) S_ .f32 0x00000000#32)))

/-- The loss: the scores summed over the gages, over the validity bits summed over the gages, negated, summed over the channels. -/
def lossV : FVec Ideal S_ .f32 :=
  Host.reduceAdd
    (Host.negf
      (Host.divf
        (Host.reduceAdd (nseV a2 a3 a4 a5) (constant (F := Ideal) S_ .f32 0x00000000#32) reducesTo_S8192x4_S4_d0 h_S_)
        (Host.reduceAdd (uitofp (F := Ideal) .f32 (validV a2 a3 a4)) (constant (F := Ideal) S_ .f32 0x00000000#32) reducesTo_S8192x4_S4_d0 h_S_)))
    (constant (F := Ideal) S_ .f32 0x00000000#32) reducesTo_S4_S_d0 h_S_

variable (cnt sumt sumt2 ssres : Fin 8192 → Fin 4 → EReal)
variable (h2 : ∀ g k, a2 (ix2 (0 : Fin 1) (col g k)) = cnt g k)
variable (h3 : ∀ g k, a3 (ix2 (0 : Fin 1) (col g k)) = sumt g k)
variable (h4 : ∀ g k, a4 (ix2 (0 : Fin 1) (col g k)) = sumt2 g k)
variable (h5 : ∀ g k, a5 (ix2 (0 : Fin 1) (col g k)) = ssres g k)

include h2 h3 h4 in
/-- At column (g, k) the total sum of squares is that of the column's count, sum and sum of squares. -/
theorem sstV_apply (g : Fin 8192) (k : Fin 4) : sstV a2 a3 a4 (ix2 g k) = sstOf cnt sumt sumt2 g k := by
  show recast a4 (ix2 g k) - Ideal.div (recast a3 (ix2 g k) * recast a3 (ix2 g k))
      (max (recast a2 (ix2 g k)) (Ideal.ofBits .f32 0x3F800000#32)) = _
  rw [recast_apply, recast_apply, recast_apply, h2, h3, h4]
  rfl

include h2 h3 h4 in
/-- At column (g, k) the validity bit is that of the column's statistics. -/
theorem validV_apply (g : Fin 8192) (k : Fin 4) : validV a2 a3 a4 (ix2 g k) = validOf cnt sumt sumt2 g k := by
  show IntOp.andi (Ideal.cmp .ogt (recast a2 (ix2 g k)) (Ideal.ofBits .f32 0x00000000#32))
      (Ideal.cmp .une (sstV a2 a3 a4 (ix2 g k)) (Ideal.ofBits .f32 0x00000000#32)) = _
  rw [recast_apply, h2, sstV_apply a2 a3 a4 cnt sumt sumt2 h2 h3 h4]
  rfl

include h2 h3 h4 h5 in
/-- At column (g, k) the score is 1 − ssres / sst where the column is valid and 0.0 elsewhere. -/
theorem nseV_apply (g : Fin 8192) (k : Fin 4) :
    nseV a2 a3 a4 a5 (ix2 g k)
      = Scalar.select (validOf cnt sumt sumt2 g k)
          (one32 - Ideal.div (ssres g k) (Scalar.select (validOf cnt sumt sumt2 g k) (sstOf cnt sumt sumt2 g k) one32)) zero32 := by
  show Scalar.select (validV a2 a3 a4 (ix2 g k))
      (Ideal.ofBits .f32 0x3F800000#32 - Ideal.div (recast a5 (ix2 g k))
        (Scalar.select (validV a2 a3 a4 (ix2 g k)) (sstV a2 a3 a4 (ix2 g k)) (Ideal.ofBits .f32 0x3F800000#32)))
      (Ideal.ofBits .f32 0x00000000#32) = _
  rw [recast_apply, h5, validV_apply a2 a3 a4 cnt sumt sumt2 h2 h3 h4, sstV_apply a2 a3 a4 cnt sumt sumt2 h2 h3 h4]

include h2 h3 h4 h5 in
/-- The host's loss is the loss of the four column statistics. -/
theorem tail_formula : lossV a2 a3 a4 a5 = fun _ => lossOf cnt sumt sumt2 ssres := by
  funext i
  unfold lossV
  rw [sum_channels]
  unfold lossOf finish
  refine congrArg (_ + ·) (Finset.sum_congr rfl fun k _ => ?_)
  show -(Ideal.div
      (Host.reduceAdd (nseV a2 a3 a4 a5) (constant (F := Ideal) S_ .f32 0x00000000#32) reducesTo_S8192x4_S4_d0 h_S_ (ix1 k))
      (Host.reduceAdd (uitofp (F := Ideal) .f32 (validV a2 a3 a4)) (constant (F := Ideal) S_ .f32 0x00000000#32) reducesTo_S8192x4_S4_d0 h_S_ (ix1 k))) = _
  rw [sum_gages, sum_gages]
  unfold denOf
  refine congrArg Neg.neg (congrArg₂ Ideal.div (congrArg (_ + ·) (Finset.sum_congr rfl fun g _ => ?_))
    (congrArg (_ + ·) (Finset.sum_congr rfl fun g _ => ?_)))
  · exact nseV_apply a2 a3 a4 a5 cnt sumt sumt2 ssres h2 h3 h4 h5 g k
  · show (((validV a2 a3 a4 (ix2 g k)).toNat : ℝ) : EReal) = _
    rw [validV_apply a2 a3 a4 cnt sumt sumt2 h2 h3 h4]

end Stages

end KTail

/-- The program's result after the host tail, from the four rows the region leaves read at every column. -/
theorem tail_value (c : Dev nD) (cnt sumt sumt2 ssres : Fin 8192 → Fin 4 → EReal)
    (h2 : ∀ g k, (dats m 0 c).arrAt 2 cfg0.N (ix2 (0 : Fin 1) (col g k)) = cnt g k)
    (h3 : ∀ g k, (dats m 0 c).arrAt 3 cfg0.N (ix2 (0 : Fin 1) (col g k)) = sumt g k)
    (h4 : ∀ g k, (dats m 0 c).arrAt 4 cfg0.N (ix2 (0 : Fin 1) (col g k)) = sumt2 g k)
    (h5 : ∀ g k, (dats m 0 c).arrAt 5 cfg0.N (ix2 (0 : Fin 1) (col g k)) = ssres g k) :
    Pipeline.afterTail₀ cfgs (dats m) 0 (V0 m) [hostOps1, hostOps1_1, hostOps1_2, hostOps1_3, hostOps1_4] c main_v27
      = fun _ => lossOf cnt sumt sumt2 ssres := by
  unfold Pipeline.afterTail₀
  simp only [hostOps1, hostOps1_1, hostOps1_2, hostOps1_3, hostOps1_4, List.flatten_cons, List.flatten_nil,
    List.append_nil, List.cons_append, List.nil_append]
  after_results_simp
  -- the four rows the region leaves are the pipeline's arrays 2 … 5 at the end of the run
  have e2 : Pipeline.withArrays (cfgs 0).spec c (V0 m c) (fun w => (dats m 0 c).arrAt w (cfgs 0).N)
      (Proc.devRef .tc main_v2_0) = (dats m 0 c).arrAt 2 cfg0.N :=
    Pipeline.withArrays_arr spec0 launch0.win.arr_inj c _ _ 2
  have e3 : Pipeline.withArrays (cfgs 0).spec c (V0 m c) (fun w => (dats m 0 c).arrAt w (cfgs 0).N)
      (Proc.devRef .tc main_v2_1) = (dats m 0 c).arrAt 3 cfg0.N :=
    Pipeline.withArrays_arr spec0 launch0.win.arr_inj c _ _ 3
  have e4 : Pipeline.withArrays (cfgs 0).spec c (V0 m c) (fun w => (dats m 0 c).arrAt w (cfgs 0).N)
      (Proc.devRef .tc main_v2_2) = (dats m 0 c).arrAt 4 cfg0.N :=
    Pipeline.withArrays_arr spec0 launch0.win.arr_inj c _ _ 4
  have e5 : Pipeline.withArrays (cfgs 0).spec c (V0 m c) (fun w => (dats m 0 c).arrAt w (cfgs 0).N)
      (Proc.devRef .tc main_v2_3) = (dats m 0 c).arrAt 5 cfg0.N :=
    Pipeline.withArrays_arr spec0 launch0.win.arr_inj c _ _ 5
  rw [e2, e3, e4, e5]
  -- from here the rows are four arbitrary arrays known at every column
  generalize (dats m 0 c).arrAt 2 cfg0.N = a2 at h2 ⊢
  generalize (dats m 0 c).arrAt 3 cfg0.N = a3 at h3 ⊢
  generalize (dats m 0 c).arrAt 4 cfg0.N = a4 at h4 ⊢
  generalize (dats m 0 c).arrAt 5 cfg0.N = a5 at h5 ⊢
  -- a value handed to the select function and back is carried along a trivial type equation
  simp only [StableHlo.TRef.toBuf, StableHlo.TRef.ofBuf, cast_eq]
  exact KTail.tail_formula a2 a3 a4 a5 cnt sumt sumt2 ssres h2 h3 h4 h5

end Cert.KernelIdeal.NSE

end
-- ==== Proof.KValue.lean ====
/-
  The idealized kernel program's run, read as a value: its result is the streaming form of the loss of its two arguments.

  Before the region the host recasts each [2000, 8192, 4] input as [2000, 32768]: entry (r, 4 g + k) is entry (r, g, k).
  After the region the four output rows hold the column sums (count, ∑ t, ∑ t², ∑ (t − o)²) over all 2000 rows, which
  at column 4 g + k are the four column statistics of (g, k); the host tail turns those into the loss.
-/
import proofs.«123647_j7301444403966_1_alg».proof.Proof.Gen.KernelIdeal.Frame
import proofs.«123647_j7301444403966_1_alg».proof.Proof.NseSpec
import proofs.«123647_j7301444403966_1_alg».proof.Proof.KArrays
import proofs.«123647_j7301444403966_1_alg».proof.Proof.KTail
import Idealize.ShloMosaic.Lib.Pipeline.Value
import Idealize.ShloMosaic.Lib.StableHlo.Run
import Idealize.ShloMosaic.Lib.ValueIdx

noncomputable section

open scoped BigOperators
open Idealize.ShloMosaic Idealize.ShloMosaic.TcCoe Idealize.SL.Sem Idealize.ShloMosaic.ValueIdx

namespace Cert.KernelIdeal.NSE

open Cert.KernelIdeal Cert.KernelIdeal.Gen Cert.NSE

variable (m : (ℓ : Loc nD τ sig) → Buf (Elt Ideal) ℓ) (ρ : Dev nD → PrngReg)

/-- The region finds the model output recast as [2000, 32768]. -/
theorem V_v0 (c : Dev nD) :
    V m c main_v0 = shapeCast S2000x32768 (m ((c.tc : Thread nD τ).loc main_arg0)) shapeCasts_S2000x8192x4_S2000x32768 := by
  show StableHlo.after hostOps0 (fun b => m (c, b)) (Proc.devRef .tc main_v0) = _
  after_results
  rfl

/-- The region finds the target recast as [2000, 32768]. -/
theorem V_v1 (c : Dev nD) :
    V m c main_v1 = shapeCast S2000x32768 (m ((c.tc : Thread nD τ).loc main_arg1)) shapeCasts_S2000x8192x4_S2000x32768 := by
  show StableHlo.after hostOps0 (fun b => m (c, b)) (Proc.devRef .tc main_v1) = _
  after_results
  rfl

/-- Row-major positions: (r, g, k) of [2000, 8192, 4] is (r, 4 g + k) of [2000, 32768]. -/
theorem pos_eq (r : Fin 2000) (g : Fin 8192) (k : Fin 4) :
    (S2000x8192x4.rowMajor (ix3 r g k)).val = (S2000x32768.rowMajor (ix2 r (col g k))).val := by
  rw [Shape.rowMajor_val_three, Shape.rowMajor_val_two]
  show (r.val * 8192 + g.val) * 4 + k.val = r.val * 32768 + (g.val * 4 + k.val)
  omega

theorem Oarr_apply (c : Dev nD) (r : Fin 2000) (g : Fin 8192) (k : Fin 4) :
    Oarr m c (ix2 r (col g k)) = (m ((c.tc : Thread nD τ).loc main_arg0)) (ix3 r g k) := by
  show V m c main_v0 _ = _
  rw [V_v0]
  exact shapeCast_apply _ _ _ (ix3 r g k) (pos_eq r g k)

theorem Tarr_apply (c : Dev nD) (r : Fin 2000) (g : Fin 8192) (k : Fin 4) :
    Tarr m c (ix2 r (col g k)) = (m ((c.tc : Thread nD τ).loc main_arg1)) (ix3 r g k) := by
  show V m c main_v1 _ = _
  rw [V_v1]
  exact shapeCast_apply _ _ _ (ix3 r g k) (pos_eq r g k)

theorem On_apply (c : Dev nD) (r : Fin 2000) (g : Fin 8192) (k : Fin 4) :
    On m c r.val (col g k).val = (m ((c.tc : Thread nD τ).loc main_arg0)) (ix3 r g k) := by
  unfold On
  rw [dif_pos ⟨r.isLt, (col g k).isLt⟩]
  exact Oarr_apply m c r g k

theorem Tn_apply (c : Dev nD) (r : Fin 2000) (g : Fin 8192) (k : Fin 4) :
    Tn m c r.val (col g k).val = (m ((c.tc : Thread nD τ).loc main_arg1)) (ix3 r g k) := by
  unfold Tn
  rw [dif_pos ⟨r.isLt, (col g k).isLt⟩]
  exact Tarr_apply m c r g k

/-! ### The four output rows at column 4 g + k are the four column statistics of (g, k) -/

theorem cnt_col (c : Dev nD) (g : Fin 8192) (k : Fin 4) :
    (dats m 0 c).arrAt 2 cfg0.N (ix2 (0 : Fin 1) (col g k)) = cntK g k := by
  rw [arr2]
  show ∑ r ∈ Finset.range 2000, f0 c r (col g k).val = ∑ _r : Fin 2000, (1 : EReal)
  rw [Finset.sum_range]
  rfl

theorem sumt_col (c : Dev nD) (g : Fin 8192) (k : Fin 4) :
    (dats m 0 c).arrAt 3 cfg0.N (ix2 (0 : Fin 1) (col g k)) = sumtK (m ((c.tc : Thread nD τ).loc main_arg1)) g k := by
  rw [arr3]
  show ∑ r ∈ Finset.range 2000, f1 m c r (col g k).val = ∑ r : Fin 2000, _
  rw [Finset.sum_range]
  exact Finset.sum_congr rfl fun r _ => Tn_apply m c r g k

theorem sumt2_col (c : Dev nD) (g : Fin 8192) (k : Fin 4) :
    (dats m 0 c).arrAt 4 cfg0.N (ix2 (0 : Fin 1) (col g k)) = sumt2K (m ((c.tc : Thread nD τ).loc main_arg1)) g k := by
  rw [arr4]
  show ∑ r ∈ Finset.range 2000, f2 m c r (col g k).val = ∑ r : Fin 2000, _
  rw [Finset.sum_range]
  refine Finset.sum_congr rfl fun r _ => ?_
  show Tn m c r.val (col g k).val * Tn m c r.val (col g k).val = _
  rw [Tn_apply]

theorem ssres_col (c : Dev nD) (g : Fin 8192) (k : Fin 4) :
    (dats m 0 c).arrAt 5 cfg0.N (ix2 (0 : Fin 1) (col g k))
      = ssresK (m ((c.tc : Thread nD τ).loc main_arg0)) (m ((c.tc : Thread nD τ).loc main_arg1)) g k := by
  rw [arr5]
  show ∑ r ∈ Finset.range 2000, f3 m c r (col g k).val = ∑ r : Fin 2000, _
  rw [Finset.sum_range]
  refine Finset.sum_congr rfl fun r _ => ?_
  show (Tn m c r.val (col g k).val - On m c r.val (col g k).val) * (Tn m c r.val (col g k).val - On m c r.val (col g k).val) = _
  rw [Tn_apply, On_apply]

/-- The program's result after the host tail is the streaming form of the loss of the two arguments. -/
theorem tail_loss (c : Dev nD) :
    Pipeline.afterTail₀ cfgs (dats m) 0 (V0 m) [hostOps1, hostOps1_1, hostOps1_2, hostOps1_3, hostOps1_4] c main_v27
      = fun _ => lossK (m ((c.tc : Thread nD τ).loc main_arg0)) (m ((c.tc : Thread nD τ).loc main_arg1)) := by
  rw [lossK_eq_lossOf]
  exact tail_value m c _ _ _ _ (cnt_col m c) (sumt_col m c) (sumt2_col m c) (ssres_col m c)

/-- The idealized kernel's run: it ends with its result at the streaming form of the loss and its arguments unchanged. -/
theorem run : θ_run defs (onTc (τ := τ) (main (F := Ideal))) ⟨m, fun _ => 0, ρ⟩ fun r => ∀ c : Dev nD,
      r.2.mem ((c.tc : Thread nD τ).loc main_v27)
        = (fun _ => lossK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v27 (Pipeline.mem_restRefs_of main_v27 (by decide) (by decide))).trans (tail_loss m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.NSE

end
-- ==== Proof.RefValue.lean ====
/-
  The reference program's result is the centred form of the masked Nash–Sutcliffe loss of its two arguments.

  Over the extended reals no element differs from itself, so the observation mask is everywhere true: the masked target is
  the target, the masked output the output, and every column counts all 2000 timesteps (an integer sum of 2000 ones, which
  does not wrap). The mean is the column sum over 2000; the total sum of squares is taken about the mean; a column is
  valid when its total sum of squares is not zero; the per-channel divisor is the integer count of valid gages (at most
  8192, so it does not wrap) converted to a float.
-/
import proofs.«123647_j7301444403966_1_alg».proof.Defs
import proofs.«123647_j7301444403966_1_alg».proof.Proof.Gen.ReferenceIdeal
import proofs.«123647_j7301444403966_1_alg».proof.Proof.Gen.ReferenceIdeal.Run
import proofs.«123647_j7301444403966_1_alg».proof.Proof.Gen.ReferenceIdeal.Read
import proofs.«123647_j7301444403966_1_alg».proof.Proof.NseSpec
import Idealize.ShloMosaic.Lib.ValueIdx
import Idealize.ShloMosaic.Lib.ValueLayout
import Idealize.ShloMosaic.Lib.StableHlo.Predicate
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.NSE

open Cert.ReferenceIdeal Cert.ReferenceIdeal.Gen Cert.ReferenceIdeal.Read

/-- An input array of the reference: one extended real per (timestep, gage, channel). -/
abbrev RefArr : Type := (⟨S2000x8192x4, .f32⟩ : BufTy).Contents (Elt Ideal)

/-- Over the extended reals nothing differs from itself: the observation mask is set everywhere. -/
theorem mask_one (x1 : RefArr) (i : S2000x8192x4.Idx) : val_main_v1 (F := Ideal) x1 i = 1#1 := by
  rw [val_main_v1_apply, val_main_v0_apply]
  show ~~~(Ideal.cmp .une (x1 i) (x1 i)) = 1#1
  simp [Ideal.cmp]

/-- Under the everywhere-set mask the masked target is the target … -/
theorem v2_eq (x1 : RefArr) (i : S2000x8192x4.Idx) : val_main_v2 (F := Ideal) x1 i = x1 i := by
  rw [val_main_v2_apply, mask_one, select_one]

/-- … the masked output is the output … -/
theorem v3_eq (x0 x1 : RefArr) (i : S2000x8192x4.Idx) : val_main_v3 (F := Ideal) x0 x1 i = x0 i := by
  rw [val_main_v3_apply, mask_one, select_one]

/-- … and the widened mask is the word 1 everywhere. -/
theorem v4_eq (x1 : RefArr) : val_main_v4 (F := Ideal) x1 = fun _ => 1#32 := by
  funext i
  rw [val_main_v4_apply, mask_one]
  rfl

/-- Summing the first axis away sends (r, g', k') to column (g', k'): the indices that fall on column (g, k) are those
    whose second and third coordinates are g and k. -/
theorem drop0_iff (i : S2000x8192x4.Idx) (g : Fin 8192) (k : Fin 4) :
    reducesTo_S2000x8192x4_S8192x4_d0.drop i = ix2 g k ↔ i 1 = g ∧ i 2 = k := by
  have h0 : ((reducesTo_S2000x8192x4_S8192x4_d0.drop i) 0 : Nat) = i 1 := Shape.ReducesTo.drop_apply_val _ i 0
  have h1 : ((reducesTo_S2000x8192x4_S8192x4_d0.drop i) 1 : Nat) = i 2 := Shape.ReducesTo.drop_apply_val _ i 1
  constructor
  · intro e; rw [e] at h0 h1; exact ⟨Fin.ext h0.symm, Fin.ext h1.symm⟩
  · rintro ⟨e1, e2⟩
    funext b
    match b with
    | ⟨0, _⟩ => exact Fin.ext (h0.trans (congrArg Fin.val e1))
    | ⟨1, _⟩ => exact Fin.ext (h1.trans (congrArg Fin.val e2))

/-- Such an index is (its timestep, g, k). -/
theorem ix3_back (i : S2000x8192x4.Idx) (g : Fin 8192) (k : Fin 4) (e1 : i 1 = g) (e2 : i 2 = k) :
    ix3 (i 0) g k = i := by
  funext b
  match b with
  | ⟨0, _⟩ => rfl
  | ⟨1, _⟩ => exact e1.symm
  | ⟨2, _⟩ => exact e2.symm

/-- A sum over the indices falling on column (g, k) is the sum over the 2000 timesteps r of the term at (r, g, k). -/
theorem sum_drop0 {M : Type} [AddCommMonoid M] (f : S2000x8192x4.Idx → M) (g : Fin 8192) (k : Fin 4) :
    ∑ i ∈ Finset.univ.filter (fun i : S2000x8192x4.Idx => reducesTo_S2000x8192x4_S8192x4_d0.drop i = ix2 g k), f i
      = ∑ r : Fin 2000, f (ix3 r g k) := by
  refine Finset.sum_bij' (fun i _ => i 0) (fun r _ => ix3 r g k) (fun _ _ => Finset.mem_univ _)
    (fun r _ => Finset.mem_filter.2 ⟨Finset.mem_univ _, (drop0_iff _ g k).2 ⟨rfl, rfl⟩⟩)
    (fun i hi => ?_) (fun _ _ => rfl) (fun i hi => ?_)
  · obtain ⟨e1, e2⟩ := (drop0_iff i g k).1 (Finset.mem_filter.1 hi).2
    exact ix3_back i g k e1 e2
  · obtain ⟨e1, e2⟩ := (drop0_iff i g k).1 (Finset.mem_filter.1 hi).2
    exact (congrArg f (ix3_back i g k e1 e2)).symm

/-- Every column's count is 2000: an integer sum of 2000 ones, far below 2³², so it does not wrap. -/
theorem cnt_eq (x1 : RefArr) (g : Fin 8192) (k : Fin 4) : val_main_v5 (F := Ideal) x1 (ix2 g k) = 2000#32 := by
  unfold val_main_v5
  rw [Host.reduce_eq_fold, v4_eq]
  apply BitVec.eq_of_toNat_eq
  have hsum : ∑ i ∈ Finset.univ.filter (fun i : S2000x8192x4.Idx => reducesTo_S2000x8192x4_S8192x4_d0.drop i = ix2 g k),
      ((fun _ => 1#32 : S2000x8192x4.Idx → BitVec 32) i).toNat = 2000 := by
    rw [sum_drop0]; simp
  show (Finset.fold IntOp.addi 0#32 (fun _ => 1#32) _).toNat = _
  rw [StableHlo.Predicate.toNat_fold_addi _ _ (by rw [hsum]; norm_num), hsum]; rfl

/-- max(2000, 1) = 2000 … -/
theorem v7_eq (x1 : RefArr) (g : Fin 8192) (k : Fin 4) : val_main_v7 (F := Ideal) x1 (ix2 g k) = 2000#32 := by
  rw [val_main_v7_apply, cnt_eq, val_main_v6_apply, val_main_c_1_apply]
  decide

/-- … converted, the real number 2000 … -/
theorem v8_eq (x1 : RefArr) (g : Fin 8192) (k : Fin 4) : val_main_v8 (F := Ideal) x1 (ix2 g k) = ((2000 : ℝ) : EReal) := by
  rw [val_main_v8_apply, v7_eq]
  show (((2000#32 : BitVec 32).toInt : ℝ) : EReal) = ((2000 : ℝ) : EReal)
  have h : (2000#32 : BitVec 32).toInt = 2000 := by decide
  rw [h]; norm_num

/-- … and 2000 > 0: the count's validity bit is set. -/
theorem v21_eq (x1 : RefArr) (g : Fin 8192) (k : Fin 4) : val_main_v21 (F := Ideal) x1 (ix2 g k) = 1#1 := by
  rw [val_main_v21_apply, cnt_eq, val_main_v20_apply, val_main_c_6_apply]
  decide

/-- The r-th term of a sum over the first axis at column (g, k) is read at (r, g, k). -/
theorem idx9_eq (g : Fin 8192) (k : Fin 4) (r : Fin 2000) : idx_main_v9 (ix2 g k) r = ix3 r g k := by
  funext a; match a with | ⟨0, _⟩ => rfl | ⟨1, _⟩ => rfl | ⟨2, _⟩ => rfl
theorem idx16_eq (g : Fin 8192) (k : Fin 4) (r : Fin 2000) : idx_main_v16 (ix2 g k) r = ix3 r g k := by
  funext a; match a with | ⟨0, _⟩ => rfl | ⟨1, _⟩ => rfl | ⟨2, _⟩ => rfl
theorem idx19_eq (g : Fin 8192) (k : Fin 4) (r : Fin 2000) : idx_main_v19 (ix2 g k) r = ix3 r g k := by
  funext a; match a with | ⟨0, _⟩ => rfl | ⟨1, _⟩ => rfl | ⟨2, _⟩ => rfl
/-- Broadcasting a [8192 × 4] array back along the timesteps reads column (g, k) at every (r, g, k). -/
theorem idx11_12_eq (r : Fin 2000) (g : Fin 8192) (k : Fin 4) : idx_main_v11 (idx_main_v12 (ix3 r g k)) = ix2 g k := by
  funext a; match a with | ⟨0, _⟩ => rfl | ⟨1, _⟩ => rfl

/-- The column mean: the column's sum (from the literal 0.0) over the count 2000. -/
theorem mean_eq (x1 : RefArr) (g : Fin 8192) (k : Fin 4) : val_main_v10 (F := Ideal) x1 (ix2 g k) = Cert.NSE.meanR x1 g k := by
  rw [val_main_v10_apply, val_main_v9_apply, v8_eq]
  unfold Cert.NSE.meanR
  rw [Ideal.hostDivf_def]
  refine congrArg (fun s => Ideal.div s ((2000 : ℝ) : EReal)) ?_
  refine congrArg (fun s => Cert.NSE.zero32 + s) (Finset.sum_congr rfl fun r _ => ?_)
  rw [idx9_eq, v2_eq]

/-- The centred target: the target minus its column's mean. -/
theorem v14_eq (x1 : RefArr) (r : Fin 2000) (g : Fin 8192) (k : Fin 4) :
    val_main_v14 (F := Ideal) x1 (ix3 r g k) = x1 (ix3 r g k) - Cert.NSE.meanR x1 g k := by
  rw [val_main_v14_apply, mask_one, select_one, val_main_v13_apply, v2_eq, val_main_v12_apply, val_main_v11_apply,
    idx11_12_eq, mean_eq]
  rfl

/-- The total sum of squares about the mean. -/
theorem sst_eq (x1 : RefArr) (g : Fin 8192) (k : Fin 4) : val_main_v16 (F := Ideal) x1 (ix2 g k) = Cert.NSE.sstR x1 g k := by
  rw [val_main_v16_apply]
  unfold Cert.NSE.sstR
  refine congrArg (fun s => Cert.NSE.zero32 + s) (Finset.sum_congr rfl fun r _ => ?_)
  rw [idx16_eq, val_main_v15_apply, v14_eq]
  rfl

/-- The residual sum of squares. -/
theorem ssres_eq (x0 x1 : RefArr) (g : Fin 8192) (k : Fin 4) :
    val_main_v19 (F := Ideal) x0 x1 (ix2 g k) = Cert.NSE.ssresR x0 x1 g k := by
  rw [val_main_v19_apply]
  unfold Cert.NSE.ssresR
  refine congrArg (fun s => Cert.NSE.zero32 + s) (Finset.sum_congr rfl fun r _ => ?_)
  rw [idx19_eq, val_main_v18_apply, val_main_v17_apply, v2_eq, v3_eq]
  rfl

/-- A column is valid when its total sum of squares is not zero (its count, 2000, is positive). -/
theorem valid_eq (x1 : RefArr) (g : Fin 8192) (k : Fin 4) : val_main_v24 (F := Ideal) x1 (ix2 g k) = Cert.NSE.validR x1 g k := by
  rw [val_main_v24_apply, v21_eq, val_main_v23_apply, sst_eq, val_main_v22_apply, val_main_cst_7_apply]
  rfl

/-- Row p, column k of a [8192 × 4] rectangle, written either way. -/
theorem ij_eq_ix2 (p : Fin 8192) (k : Fin 4) : StableHlo.Predicate.ij p k = ix2 p k := by
  funext a; match a with | ⟨0, _⟩ => rfl | ⟨1, _⟩ => rfl

/-- The integer count of a channel's valid gages: a sum of at most 8192 widened bits, which does not wrap. -/
theorem cnt_valid_toNat (x1 : RefArr) (k : Fin 4) :
    (val_main_v32 (F := Ideal) x1 (ix1 k)).toNat
      = (Finset.univ.filter fun g : Fin 8192 => Cert.NSE.validR x1 g k = 1#1).card := by
  unfold val_main_v32 val_main_v31 val_main_c_12
  rw [StableHlo.Predicate.toNat_reduce_count_rows (by norm_num) (val_main_v24 (F := Ideal) x1) natLt_1_32
    reducesTo_S8192x4_S4_d0 h_S_ (ix1 k)]
  refine congrArg Finset.card (Finset.filter_congr fun p _ => ?_)
  have e : val_main_v24 (F := Ideal) x1 (StableHlo.Predicate.ij p k) = Cert.NSE.validR x1 p k :=
    (congrArg (val_main_v24 (F := Ideal) x1) (ij_eq_ix2 p k)).trans (valid_eq x1 p k)
  exact iff_of_eq (congrArg (· = 1#1) e)

/-- The per-channel divisor: that count, read signed (it is below 2³¹) and converted. -/
theorem den_eq (x1 : RefArr) (k : Fin 4) : val_main_v33 (F := Ideal) x1 (ix1 k) = Cert.NSE.denR x1 k := by
  rw [val_main_v33_apply]
  show (((val_main_v32 (F := Ideal) x1 (ix1 k)).toInt : ℝ) : EReal) = _
  have hc := cnt_valid_toNat x1 k
  have hle : (Finset.univ.filter fun g : Fin 8192 => Cert.NSE.validR x1 g k = 1#1).card ≤ 8192 := by
    simpa using Finset.card_le_univ (Finset.univ.filter fun g : Fin 8192 => Cert.NSE.validR x1 g k = 1#1)
  rw [StableHlo.Predicate.toInt_eq_toNat_of_lt (by rw [hc]; exact lt_of_le_of_lt hle (by norm_num)), hc]
  unfold Cert.NSE.denR
  simp

/-- A rank-1 index over four channels is its one coordinate. -/
def idx4Equiv : Fin 4 ≃ S4.Idx where
  toFun k := ix1 k
  invFun j := j 0
  left_inv _ := rfl
  right_inv j := (eq_ix1 j).symm

/-- The g-th term of channel k's sum over the gages is read at column (g, k). -/
theorem idx30_eq (k : Fin 4) (g : Fin 8192) : idx_main_v30 (ix1 k) g = ix2 g k := by
  funext a; match a with | ⟨0, _⟩ => rfl | ⟨1, _⟩ => rfl

/-- The guarded divisor: the total sum of squares where valid, else 1.0. -/
theorem v25_eq (x1 : RefArr) (g : Fin 8192) (k : Fin 4) :
    val_main_v25 (F := Ideal) x1 (ix2 g k)
      = Scalar.select (Cert.NSE.validR x1 g k) (Cert.NSE.sstR x1 g k) Cert.NSE.one32 := by
  rw [val_main_v25_apply, valid_eq, sst_eq, val_main_call3_v1_apply, val_main_call3_v0_apply, val_main_cst_8_apply]
  rfl

/-- A column's score: 1 − ssres / sst where valid, else 0. -/
theorem v29_eq (x0 x1 : RefArr) (g : Fin 8192) (k : Fin 4) :
    val_main_v29 (F := Ideal) x0 x1 (ix2 g k)
      = Scalar.select (Cert.NSE.validR x1 g k)
          (Cert.NSE.one32 - Ideal.div (Cert.NSE.ssresR x0 x1 g k)
            (Scalar.select (Cert.NSE.validR x1 g k) (Cert.NSE.sstR x1 g k) Cert.NSE.one32)) Cert.NSE.zero32 := by
  rw [val_main_v29_apply, valid_eq, val_main_v28_apply, val_main_v26_apply, ssres_eq, v25_eq, val_main_v27_apply,
    val_main_cst_9_apply, val_main_call4_v1_apply, val_main_call4_v0_apply, val_main_cst_10_apply]
  rfl

/-- A channel's term: minus (the sum of its columns' scores over its divisor). -/
theorem v35_eq (x0 x1 : RefArr) (k : Fin 4) :
    val_main_v35 (F := Ideal) x0 x1 (ix1 k)
      = -(Ideal.div (Cert.NSE.zero32 + ∑ g : Fin 8192,
          Scalar.select (Cert.NSE.validR x1 g k)
            (Cert.NSE.one32 - Ideal.div (Cert.NSE.ssresR x0 x1 g k)
              (Scalar.select (Cert.NSE.validR x1 g k) (Cert.NSE.sstR x1 g k) Cert.NSE.one32)) Cert.NSE.zero32)
          (Cert.NSE.denR x1 k)) := by
  rw [val_main_v35_apply, val_main_v34_apply, val_main_v30_apply, den_eq]
  rw [Ideal.hostNegf_def, Ideal.negf_def, Ideal.hostDivf_def]
  refine congrArg (fun s => -(Ideal.div (Cert.NSE.zero32 + s) (Cert.NSE.denR x1 k))) (Finset.sum_congr rfl fun g _ => ?_)
  rw [idx30_eq, v29_eq]

/-- The reference's value: the four channels' terms summed from the literal 0.0. -/
theorem value_eq (x0 x1 : RefArr) (i : S_.Idx) : val_main_v36 (F := Ideal) x0 x1 i = Cert.NSE.lossR x0 x1 := by
  rw [val_main_v36_apply]
  unfold Cert.NSE.lossR Cert.NSE.finish
  refine congrArg (fun s => Cert.NSE.zero32 + s) ?_
  rw [← Equiv.sum_comp idx4Equiv]
  exact Finset.sum_congr rfl fun k _ => v35_eq x0 x1 k

/-- The reference's result term, over the extended reals, is the centred form of the loss of the two arguments. -/
theorem result_eq (m : (ℓ : Loc nD τ sig) → Buf (Elt Ideal) ℓ) (c : Dev nD) :
    Cert.ReferenceIdeal.Value.res_out0 (F := Ideal) m c
      = fun _ => Cert.NSE.lossR (m ((c.tc : Thread nD τ).loc main_arg0)) (m ((c.tc : Thread nD τ).loc main_arg1)) := by
  refine (val_main_v36_eq (F := Ideal) m c).trans ?_
  funext i
  exact value_eq _ _ i

/-- The reference's run: it ends with its result at the centred form of the loss and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
        = (fun _ => Cert.NSE.lossR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq m c), (h c).2⟩)
    (Cert.ReferenceIdeal.Value.run (F := Ideal) m ρ)

end Cert.ReferenceIdeal.NSE

end
-- ==== Proof.lean ====
/-
  The masked Nash–Sutcliffe loss: a streaming Pallas kernel against its plain jnp reference, equal over the extended reals.

  Both programs take the model output `o` and the observed target `t`, each [2000 timesteps, 8192 gages, 4 channels], and
  return one number: per (gage, channel) column the count n of observed timesteps, the total sum of squares sst of the
  targets about their mean and the residual sum of squares ssres = ∑ (t − o)²; a column with n > 0 and sst ≠ 0 scores
  1 − ssres / sst; the loss is the sum over the channels of minus the mean score of the channel's valid columns.
  Over the extended reals no value is missing, so every column counts all 2000 timesteps.

  The kernel makes ONE pass over the data: a grid of 8 column blocks × 5 row blocks accumulates, per column, the count,
  ∑ t, ∑ t² and ∑ (t − o)² in four carried rows, and the host finishes with sst = ∑ t² − (∑ t)² / n. The reference takes
  sst = ∑ (t − mean)² directly, and counts the valid columns with an integer sum where the kernel sums 0.0 / 1.0.
  The two agree because, for REAL inputs, ∑ᵣ (tᵣ − S/n)² = ∑ᵣ tᵣ² − S²/n (S = ∑ᵣ tᵣ): expanding the square needs the
  inputs finite, which is the certificate's precondition.

  The pieces: NseSpec (the two closed formulas), NseAlgebra (they agree on real inputs), NseFinite (the precondition
  says the inputs are real), KPieces / KPayload / KAccum / KArrays / KTail / KValue (the kernel's run ends at the streaming
  formula), RefValue (the reference's run ends at the centred formula). The three frames are the generated ones; the
  idealization rewrote nothing, so the kernel's sanctioned idealization is its own text.
-/
import proofs.«123647_j7301444403966_1_alg».proof.Defs
import proofs.«123647_j7301444403966_1_alg».proof.Proof.Gen.Kernel
import proofs.«123647_j7301444403966_1_alg».proof.Proof.Gen.Kernel.Skeleton
import proofs.«123647_j7301444403966_1_alg».proof.Proof.Gen.Kernel.Launch
import proofs.«123647_j7301444403966_1_alg».proof.Proof.Gen.Kernel.Points
import proofs.«123647_j7301444403966_1_alg».proof.Proof.Gen.Kernel.Frame
import proofs.«123647_j7301444403966_1_alg».proof.Proof.Gen.KernelIdeal
import proofs.«123647_j7301444403966_1_alg».proof.Proof.Gen.KernelIdeal.Skeleton
import proofs.«123647_j7301444403966_1_alg».proof.Proof.Gen.KernelIdeal.Launch
import proofs.«123647_j7301444403966_1_alg».proof.Proof.Gen.KernelIdeal.Points
import proofs.«123647_j7301444403966_1_alg».proof.Proof.Gen.KernelIdeal.Frame
import proofs.«123647_j7301444403966_1_alg».proof.Proof.Gen.ReferenceIdeal
import proofs.«123647_j7301444403966_1_alg».proof.Proof.Gen.ReferenceIdeal.Run
import proofs.«123647_j7301444403966_1_alg».proof.Proof.Gen.Pre_finite_inputs
import proofs.«123647_j7301444403966_1_alg».proof.Proof.NseAlgebra
import proofs.«123647_j7301444403966_1_alg».proof.Proof.NseFinite
import proofs.«123647_j7301444403966_1_alg».proof.Proof.KValue
import proofs.«123647_j7301444403966_1_alg».proof.Proof.RefValue
import Idealize.ShloMosaic.Adequacy
import Idealize.ShloMosaic.Init

noncomputable section

namespace Cert.Proof

open Idealize.ShloMosaic Idealize.SL.Sem

section
variable [hK : Cert.Kernel.Facts] [hKI : Cert.KernelIdeal.Facts] [hRI : Cert.ReferenceIdeal.Facts]
  [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's run ends at the streaming formula, the reference's at the centred one, of arguments that agree and,
    by the precondition, are real: there the two formulas are one number. -/
theorem algebraic : Cert.algebraic_KernelIdeal_ReferenceIdeal := by
  intro m ρ m' ρ' hpre hagree
  refine ⟨fun c _ => Cert.NSE.lossK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.NSE.run m ρ, ?_⟩
  refine (θ_run Cert.ReferenceIdeal.defs _ _).mono (fun _ h c => ⟨(h c).1.trans ?_, (h c).2⟩)
    (Cert.ReferenceIdeal.NSE.run m' ρ')
  rw [(hagree c).1, (hagree c).2]
  obtain ⟨ho, ht⟩ := Cert.NSE.finite_of_pre _ _ (hpre c)
  exact funext fun _ => (Cert.NSE.lossK_eq_lossR _ _ ho ht).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
